-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x128 : Shape := ⟨3, ![4096, 64, 128]⟩
abbrev S64x128 : Shape := ⟨2, ![64, 128]⟩
abbrev S64 : Shape := ⟨1, ![64]⟩
abbrev S64x64 : Shape := ⟨2, ![64, 64]⟩
abbrev S16x64 : Shape := ⟨2, ![16, 64]⟩
abbrev S_ : Shape := ⟨0, ![]⟩

class Facts : Prop where
  bcast_S_S4096x64x128 : S_.BroadcastsInDim S4096x64x128 (![] : Fin 0 → Fin S4096x64x128.rank)
  reducesTo_S4096x64x128_S_d0_1_2 : S4096x64x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S16x64 : S_.BroadcastsInDim S16x64 (![] : Fin 0 → Fin S16x64.rank)
  reducesTo_S16x64_S_d0_1 : S16x64.ReducesTo [0, 1] S_

variable [Facts]

def fn_part2 {F : FTy → Type} [FloatOps F] (main_arg7 : FVec F S16x64 .f32) (main_v33 : IVec S_ 1) : IVec S_ 1 :=
  let main_v34 : FVec F S16x64 .f32 := Host.absf main_arg7
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  main_v38

def fn_part1 {F : FTy → Type} [FloatOps F] (main_arg4 : FVec F S64x64 .f32) (main_arg5 : FVec F S64x64 .f32) (main_arg6 : FVec F S64x64 .f32) (main_arg7 : FVec F S16x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S4096x64x128 .f32) (main_arg1 : FVec F S64x128 .f32) (main_arg2 : FVec F S64 .f32) (main_arg3 : FVec F S64x64 .f32) (main_arg4 : FVec F S64x64 .f32) (main_arg5 : FVec F S64x64 .f32) (main_arg6 : FVec F S64x64 .f32) (main_arg7 : FVec F S16x64 .f32) : IVec S_ 1 :=
  let main_v0 : FVec F S4096x64x128 .f32 := Host.absf main_arg0
  let main_cst : FVec F S_ .f32 := constant S_ .f32 0x7F800000#32
  let main_v1 : FVec F S4096x64x128 .f32 := broadcastInDim S4096x64x128 ![] bcast_S_S4096x64x128 main_cst
  let main_v2 : IVec S4096x64x128 1 := cmpf .olt main_v0 main_v1
  let main_c : IVec S_ 1 := constantI S_ 1 1#1
  let main_v3 : IVec S_ 1 := (fun x v => Host.reduce IntOp.andi x v reducesTo_S4096x64x128_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_v13 main_v16
-- ==== Kernel.lean ====
abbrev S4096x64x128 : Shape := ⟨3, ![4096, 64, 128]⟩
abbrev S64x128 : Shape := ⟨2, ![64, 128]⟩
abbrev S64 : Shape := ⟨1, ![64]⟩
abbrev S64x64 : Shape := ⟨2, ![64, 64]⟩
abbrev S16x64 : Shape := ⟨2, ![16, 64]⟩
abbrev S1x64 : Shape := ⟨2, ![1, 64]⟩
abbrev S4096x64x16 : Shape := ⟨3, ![4096, 64, 16]⟩
abbrev S4096x64x64 : Shape := ⟨3, ![4096, 64, 64]⟩
abbrev S128x64x128 : Shape := ⟨3, ![128, 64, 128]⟩
abbrev S128x64x16 : Shape := ⟨3, ![128, 64, 16]⟩
abbrev S128x64x64 : Shape := ⟨3, ![128, 64, 64]⟩
abbrev S8192x128 : Shape := ⟨2, ![8192, 128]⟩
abbrev S128x64 : Shape := ⟨2, ![128, 64]⟩
abbrev S8192x64 : Shape := ⟨2, ![8192, 64]⟩
abbrev S128x64x1 : Shape := ⟨3, ![128, 64, 1]⟩
abbrev S64x16 : Shape := ⟨2, ![64, 16]⟩
abbrev S8192x16 : Shape := ⟨2, ![8192, 16]⟩
abbrev S8192 : Shape := ⟨1, ![8192]⟩
abbrev S8192x1 : Shape := ⟨2, ![8192, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x64x128, .f32⟩
  | .hbm, ⟨1, _⟩ => ⟨S64x128, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S16x64, .f32⟩
  | .hbm, ⟨8, _⟩ => ⟨S1x64, .f32⟩
  | .hbm, ⟨9, _⟩ => ⟨S4096x64x16, .f32⟩
  | .hbm, ⟨10, _⟩ => ⟨S4096x64x64, .f32⟩
  | .local _ .vmem, ⟨0, _⟩ => ⟨S128x64x128, .f32⟩
  | .local _ .vmem, ⟨1, _⟩ => ⟨S128x64x128, .f32⟩
  | .local _ .vmem, ⟨2, _⟩ => ⟨S64x128, .f32⟩
  | .local _ .vmem, ⟨3, _⟩ => ⟨S1x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S16x64, .f32⟩
  | .local _ .vmem, ⟨9, _⟩ => ⟨S128x64x16, .f32⟩
  | .local _ .vmem, ⟨10, _⟩ => ⟨S128x64x16, .f32⟩
  | .local _ .vmem, ⟨11, _⟩ => ⟨S128x64x64, .f32⟩
  | .local _ .vmem, ⟨12, _⟩ => ⟨S128x64x64, .f32⟩
  | _, _ => ⟨S4096x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x64x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64_S1x64 : S64.ShapeCasts S1x64
  inb_S128x64x128_S128x64x128_0_0_0 : ∀ a, (![0, 0, 0] : Fin 3 → Nat) a + S128x64x128.size a ≤ S128x64x128.size a
  h_S128x64x128 : 0 < S128x64x128.numel
  shapeCasts_S128x64x128_S8192x128 : S128x64x128.ShapeCasts S8192x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x128_p1_0_S128x64 : S64x128.Transposes [1, 0] S128x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  shapeCasts_S8192x64_S128x64x64 : S8192x64.ShapeCasts S128x64x64
  reduces_S128x64x64_S128x64 : S128x64x64.Reduces [2] S128x64
  shapeCasts_S128x64_S128x64x1 : S128x64.ShapeCasts S128x64x1
  broadcasts_S128x64x1_S128x64x64 : S128x64x1.Broadcasts S128x64x64
  inb_S128x64x64_S128x64x64_0_0_0 : ∀ a, (![0, 0, 0] : Fin 3 → Nat) a + S128x64x64.size a ≤ S128x64x64.size a
  h_S128x64x64 : 0 < S128x64x64.numel
  shapeCasts_S128x64x64_S8192x64 : S128x64x64.ShapeCasts S8192x64
  inb_S16x64_S16x64_0_0 : ∀ a, (![0, 0] : Fin 2 → Nat) a + S16x64.size a ≤ S16x64.size a
  h_S16x64 : 0 < S16x64.numel
  transposes_S16x64_p1_0_S64x16 : S16x64.Transposes [1, 0] S64x16
  reduces_S8192x16_S8192 : S8192x16.Reduces [1] S8192
  shapeCasts_S8192_S8192x1 : S8192.ShapeCasts S8192x1
  broadcasts_S8192x1_S8192x16 : S8192x1.Broadcasts S8192x16
  shapeCasts_S8192x16_S128x64x16 : S8192x16.ShapeCasts S128x64x16
  inb_S128x64x16_S128x64x16_0_0_0 : ∀ a, (![0, 0, 0] : Fin 3 → Nat) a + S128x64x16.size a ≤ S128x64x16.size a
  h_S128x64x16 : 0 < S128x64x16.numel
  dot_S8192x128_S128x64_S8192x64_1_0_0_1_n_n_wf : DotDims.WF S8192x128 S128x64 S8192x64 [1] [0] [0] [1] [] []
  dot_S8192x64_S64x64_S8192x64_1_0_0_1_n_n_wf : DotDims.WF S8192x64 S64x64 S8192x64 [1] [0] [0] [1] [] []
  dot_S128x64x64_S128x64x64_S128x64x64_2_2_1_1_0_0_wf : DotDims.WF S128x64x64 S128x64x64 S128x64x64 [2] [2] [1] [1] [0] [0]
  dot_S128x64x64_S128x64x64_S128x64x64_2_1_1_2_0_0_wf : DotDims.WF S128x64x64 S128x64x64 S128x64x64 [2] [1] [1] [2] [0] [0]
  dot_S8192x64_S64x16_S8192x16_1_0_0_1_n_n_wf : DotDims.WF S8192x64 S64x16 S8192x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S4096x64x128.size a
  hwx0_0 : ∀ i : grid0.Coords, EltTy.bits .f32 = 32 ∨ (Rect.block (s := S4096x64x128) S128x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x64.size a ≤ S16x64.size a
  hwx0_7 : ∀ i : grid0.Coords, EltTy.bits .f32 = 32 ∨ (Rect.block (s := S16x64) S16x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x64x16.size a ≤ S4096x64x16.size a
  hwx0_8 : ∀ i : grid0.Coords, EltTy.bits .f32 = 32 ∨ (Rect.block (s := S4096x64x16) S128x64x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x64x64.size a ≤ S4096x64x64.size a
  hwx0_9 : ∀ i : grid0.Coords, EltTy.bits .f32 = 32 ∨ (Rect.block (s := S4096x64x64) S128x64x64.size (cc0_transform_9 i) (hinb0_9 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S128x64x64_S128x64x64_S128x64x64_2_2_1_1_0_0 : DotDims S128x64x64 S128x64x64 S128x64x64 where
  lhsContracting := [2]
  rhsContracting := [2]
  lhsNonContracting := [1]
  rhsNonContracting := [1]
  lhsBatch := [0]
  rhsBatch := [0]
  wf := dot_S128x64x64_S128x64x64_S128x64x64_2_2_1_1_0_0_wf
def dot_S128x64x64_S128x64x64_S128x64x64_2_1_1_2_0_0 : DotDims S128x64x64 S128x64x64 S128x64x64 where
  lhsContracting := [2]
  rhsContracting := [1]
  lhsNonContracting := [1]
  rhsNonContracting := [2]
  lhsBatch := [0]
  rhsBatch := [0]
  wf := dot_S128x64x64_S128x64x64_S128x64x64_2_1_1_2_0_0_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf

abbrev win0_0 : Pipeline.Window sig grid0 :=
  Pipeline.Window.ofSpec (Memref.whole main_arg0) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1_0) S128x64x16.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_1) S128x64x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x64x128 : Shape := ⟨3, ![4096, 64, 128]⟩
abbrev S64x128 : Shape := ⟨2, ![64, 128]⟩
abbrev S64 : Shape := ⟨1, ![64]⟩
abbrev S64x64 : Shape := ⟨2, ![64, 64]⟩
abbrev S16x64 : Shape := ⟨2, ![16, 64]⟩
abbrev S4096x64x64 : Shape := ⟨3, ![4096, 64, 64]⟩
abbrev S1x1x64 : Shape := ⟨3, ![1, 1, 64]⟩
abbrev S_ : Shape := ⟨0, ![]⟩
abbrev S4096x64 : Shape := ⟨2, ![4096, 64]⟩
abbrev S4096x64x1 : Shape := ⟨3, ![4096, 64, 1]⟩
abbrev S4096x64x16 : Shape := ⟨3, ![4096, 64, 16]⟩

abbrev nBuf : Space → Nat
  | .hbm => 65
  | .vmem => 0
  | .smem => 0
  | _ => 0

abbrev bufTy : (tb : Table) → Fin (tcTables nBuf tb) → BufTy
  | .hbm, ⟨0, _⟩ => ⟨S4096x64x128, .f32⟩
  | .hbm, ⟨1, _⟩ => ⟨S64x128, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S16x64, .f32⟩
  | .hbm, ⟨8, _⟩ => ⟨S4096x64x64, .f32⟩
  | .hbm, ⟨9, _⟩ => ⟨S1x1x64, .f32⟩
  | .hbm, ⟨10, _⟩ => ⟨S4096x64x64, .f32⟩
  | .hbm, ⟨11, _⟩ => ⟨S4096x64x64, .f32⟩
  | .hbm, ⟨12, _⟩ => ⟨S_, .f32⟩
  | .hbm, ⟨13, _⟩ => ⟨S4096x64x64, .f32⟩
  | .hbm, ⟨14, _⟩ => ⟨S4096x64x64, .f32⟩
  | .hbm, ⟨15, _⟩ => ⟨S4096x64x64, .f32⟩
  | .hbm, ⟨16, _⟩ => ⟨S4096x64x64, .f32⟩
  | .hbm, ⟨17, _⟩ => ⟨S4096x64x64, .f32⟩
  | .hbm, ⟨18, _⟩ => ⟨S_, .f32⟩
  | .hbm, ⟨19, _⟩ => ⟨S_, .f32⟩
  | .hbm, ⟨20, _⟩ => ⟨S4096x64x64, .f32⟩
  | .hbm, ⟨21, _⟩ => ⟨S4096x64x64, .f32⟩
  | .hbm, ⟨22, _⟩ => ⟨S_, .f32⟩
  | .hbm, ⟨23, _⟩ => ⟨S4096x64, .f32⟩
  | .hbm, ⟨24, _⟩ => ⟨S_, .f32⟩
  | .hbm, ⟨25, _⟩ => ⟨S4096x64, .f32⟩
  | .hbm, ⟨26, _⟩ => ⟨S4096x64, .f32⟩
  | .hbm, ⟨27, _⟩ => ⟨S4096x64x1, .f32⟩
  | .hbm, ⟨28, _⟩ => ⟨S4096x64x64, .f32⟩
  | .hbm, ⟨29, _⟩ => ⟨S4096x64x64, .f32⟩
  | .hbm, ⟨30, _⟩ => ⟨S4096x64x64, .f32⟩
  | .hbm, ⟨31, _⟩ => ⟨S_, .f32⟩
  | .hbm, ⟨32, _⟩ => ⟨S4096x64, .f32⟩
  | .hbm, ⟨33, _⟩ => ⟨S4096x64x1, .f32⟩
  | .hbm, ⟨34, _⟩ => ⟨S4096x64x64, .f32⟩
  | .hbm, ⟨35, _⟩ => ⟨S4096x64x64, .f32⟩
  | .hbm, ⟨36, _⟩ => ⟨S4096x64x64, .f32⟩
  | .hbm, ⟨37, _⟩ => ⟨S4096x64x64, .f32⟩
  | .hbm, ⟨38, _⟩ => ⟨S4096x64x64, .f32⟩
  | .hbm, ⟨39, _⟩ => ⟨S_, .f32⟩
  | .hbm, ⟨40, _⟩ => ⟨S4096x64x64, .f32⟩
  | .hbm, ⟨41, _⟩ => ⟨S4096x64x64, .f32⟩
  | .hbm, ⟨42, _⟩ => ⟨S4096x64x64, .f32⟩
  | .hbm, ⟨43, _⟩ => ⟨S_, .f32⟩
  | .hbm, ⟨44, _⟩ => ⟨S4096x64x64, .f32⟩
  | .hbm, ⟨45, _⟩ => ⟨S4096x64x64, .i1⟩
  | .hbm, ⟨46, _⟩ => ⟨S_, .f32⟩
  | .hbm, ⟨47, _⟩ => ⟨S4096x64x64, .f32⟩
  | .hbm, ⟨48, _⟩ => ⟨S4096x64x64, .f32⟩
  | .hbm, ⟨49, _⟩ => ⟨S4096x64x64, .f32⟩
  | .hbm, ⟨50, _⟩ => ⟨S4096x64x16, .f32⟩
  | .hbm, ⟨51, _⟩ => ⟨S_, .f32⟩
  | .hbm, ⟨52, _⟩ => ⟨S4096x64, .f32⟩
  | .hbm, ⟨53, _⟩ => ⟨S_, .f32⟩
  | .hbm, ⟨54, _⟩ => ⟨S4096x64, .f32⟩
  | .hbm, ⟨55, _⟩ => ⟨S4096x64, .f32⟩
  | .hbm, ⟨56, _⟩ => ⟨S4096x64x1, .f32⟩
  | .hbm, ⟨57, _⟩ => ⟨S4096x64x16, .f32⟩
  | .hbm, ⟨58, _⟩ => ⟨S4096x64x16, .f32⟩
  | .hbm, ⟨59, _⟩ => ⟨S4096x64x16, .f32⟩
  | .hbm, ⟨60, _⟩ => ⟨S_, .f32⟩
  | .hbm, ⟨61, _⟩ => ⟨S4096x64, .f32⟩
  | .hbm, ⟨62, _⟩ => ⟨S4096x64x1, .f32⟩
  | .hbm, ⟨63, _⟩ => ⟨S4096x64x16, .f32⟩
  | .hbm, ⟨64, _⟩ => ⟨S4096x64x16, .f32⟩
  | _, _ => ⟨S4096x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_call1_v1 : Ref sig .tc := ⟨.hbm, 45, rfl⟩
abbrev main_call1_cst_0 : Ref sig .tc := ⟨.hbm, 46, rfl⟩
abbrev main_call1_v2 : Ref sig .tc := ⟨.hbm, 47, rfl⟩
abbrev main_call1_v3 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4096x64x64_0_1_2 : S1x1x64.BroadcastsInDim S4096x64x64 (![0, 1, 2] : Fin 3 → Fin S4096x64x64.rank)
  bcast_S_S4096x64x64 : S_.BroadcastsInDim S4096x64x64 (![] : Fin 0 → Fin S4096x64x64.rank)
  reducesTo_S4096x64x64_S4096x64_d2 : S4096x64x64.ReducesTo [2] S4096x64
  h_S_ : 0 < S_.numel
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  reducesTo_S4096x64x16_S4096x64_d2 : S4096x64x16.ReducesTo [2] S4096x64
  bcast_S4096x64x1_S4096x64x16_0_1_2 : S4096x64x1.BroadcastsInDim S4096x64x16 (![0, 1, 2] : Fin 3 → Fin S4096x64x16.rank)
  dot_S4096x64x128_S64x128_S4096x64x64_2_1_01_0_n_n_wf : DotDims.WF S4096x64x128 S64x128 S4096x64x64 [2] [1] [0, 1] [0] [] []
  dot_S4096x64x64_S64x64_S4096x64x64_2_1_01_0_n_n_wf : DotDims.WF S4096x64x64 S64x64 S4096x64x64 [2] [1] [0, 1] [0] [] []
  dot_S4096x64x64_S4096x64x64_S4096x64x64_2_2_1_1_0_0_wf : DotDims.WF S4096x64x64 S4096x64x64 S4096x64x64 [2] [2] [1] [1] [0] [0]
  dot_S4096x64x64_S4096x64x64_S4096x64x64_2_1_1_2_0_0_wf : DotDims.WF S4096x64x64 S4096x64x64 S4096x64x64 [2] [1] [1] [2] [0] [0]
  dot_S4096x64x64_S16x64_S4096x64x16_2_1_01_0_n_n_wf : DotDims.WF S4096x64x64 S16x64 S4096x64x16 [2] [1] [0, 1] [0] [] []

variable [Facts₀]

def dot_S4096x64x128_S64x128_S4096x64x64_2_1_01_0_n_n : DotDims S4096x64x128 S64x128 S4096x64x64 where
  lhsContracting := [2]
  rhsContracting := [1]
  lhsNonContracting := [0, 1]
  rhsNonContracting := [0]
  lhsBatch := []
  rhsBatch := []
  wf := dot_S4096x64x128_S64x128_S4096x64x64_2_1_01_0_n_n_wf
def dot_S4096x64x64_S64x64_S4096x64x64_2_1_01_0_n_n : DotDims S4096x64x64 S64x64 S4096x64x64 where
  lhsContracting := [2]
  rhsContracting := [1]
  lhsNonContracting := [0, 1]
  rhsNonContracting := [0]
  lhsBatch := []
  rhsBatch := []
  wf := dot_S4096x64x64_S64x64_S4096x64x64_2_1_01_0_n_n_wf
def dot_S4096x64x64_S4096x64x64_S4096x64x64_2_2_1_1_0_0 : DotDims S4096x64x64 S4096x64x64 S4096x64x64 where
  lhsContracting := [2]
  rhsContracting := [2]
  lhsNonContracting := [1]
  rhsNonContracting := [1]
  lhsBatch := [0]
  rhsBatch := [0]
  wf := dot_S4096x64x64_S4096x64x64_S4096x64x64_2_2_1_1_0_0_wf
def dot_S4096x64x64_S4096x64x64_S4096x64x64_2_1_1_2_0_0 : DotDims S4096x64x64 S4096x64x64 S4096x64x64 where
  lhsContracting := [2]
  rhsContracting := [1]
  lhsNonContracting := [1]
  rhsNonContracting := [2]
  lhsBatch := [0]
  rhsBatch := [0]
  wf := dot_S4096x64x64_S4096x64x64_S4096x64x64_2_1_1_2_0_0_wf
def dot_S4096x64x64_S16x64_S4096x64x16_2_1_01_0_n_n : DotDims S4096x64x64 S16x64 S4096x64x16 where
  lhsContracting := [2]
  rhsContracting := [1]
  lhsNonContracting := [0, 1]
  rhsNonContracting := [0]
  lhsBatch := []
  rhsBatch := []
  wf := dot_S4096x64x64_S16x64_S4096x64x16_2_1_01_0_n_n_wf

class Facts : Prop extends Facts₀ where

variable [Facts]
-- ==== Proof.Spec.lean ====
/-
  The network both programs compute, for ONE batch item, over the extended reals.

  A batch item is a matrix of agent observations `x : 64 × 128`. The embedding of agent `n` is
  `e n h = max (∑ f, x n f · W_emb h f + b_emb h) 0`; keys, queries and values are the projections
  `k n d = ∑ h, e n h · W_k d h`, `q` likewise, `v n d = tanh (∑ h, e n h · W_v d h)`. The attention score of
  agent `i` for agent `j` is `(∑ d, k i d · q j d) · 1/8`, and the attention weights are the softmax of a row of
  scores, written as jax writes it: the row's maximum `M` is taken from `-∞`, every score is shifted by it,
  exponentiated, and divided by the row's sum of exponentials. The aggregated node feature is
  `(∑ j, weight i j · v j d) / 64`; the hidden layer is a leaky rectifier (slope the f32 nearest 1/100) of its
  projection by `W_f1`; the logits are the hidden layer's projection by `W_f2`; the policy is the softmax of a row of
  logits. The float constants stay the f32 patterns both programs print; only one law needs a pattern's value: dividing
  by the square root of 64 is multiplying by an eighth (`div_sqrt_sixtyFour`).
-/
import Idealize.ShloMosaic.PureOps.Ideal
import Idealize.ShloMosaic.PureOps.Ideal.Laws

noncomputable section

namespace Cert.Net

open Idealize.ShloMosaic

/-- The f32 pattern of `-∞`, the value both programs start a row's maximum from. -/
abbrev negInf : EReal := Ideal.ofBits .f32 0xFF800000#32
/-- The f32 pattern of zero. -/
abbrev zeroF : EReal := Ideal.ofBits .f32 0x00000000#32
/-- The f32 pattern of one eighth: the score scale. -/
abbrev eighth : EReal := Ideal.ofBits .f32 0x3E000000#32
/-- The f32 pattern of sixty-four: the number of agents a node feature is averaged over. -/
abbrev sixtyFour : EReal := Ideal.ofBits .f32 0x42800000#32
/-- The f32 pattern nearest one hundredth: the leaky rectifier's slope. -/
abbrev slope : EReal := Ideal.ofBits .f32 0x3C23D70A#32

/-- The embedding of agent `n`: a rectified affine map of its observation. -/
def embed (x : Fin 64 → Fin 128 → EReal) (We : Fin 64 → Fin 128 → EReal) (be : Fin 64 → EReal) (n h : Fin 64) : EReal :=
  max ((∑ f : Fin 128, x n f * We h f) + be h) zeroF

/-- A row of features projected by a weight matrix stored output-major: `∑ h, e n h · W d h`. -/
def proj {D : Nat} (e : Fin 64 → Fin 64 → EReal) (W : Fin D → Fin 64 → EReal) (n : Fin 64) (d : Fin D) : EReal :=
  ∑ h : Fin 64, e n h * W d h

/-- The scaled score of key row `i` against query row `j`. -/
def score (k q : Fin 64 → Fin 64 → EReal) (i j : Fin 64) : EReal :=
  (∑ d : Fin 64, k i d * q j d) * eighth

/-- The maximum of a row, taken from `-∞` (and once more against `-∞`, as jax's softmax writes it). -/
def rowMax {n : Nat} (s : Fin n → EReal) : EReal :=
  max negInf ((Finset.univ : Finset (Fin n)).fold max negInf s)

/-- The softmax of a row at position `j`: shifted by the row's maximum, exponentiated, normalised. -/
def softmax {n : Nat} (s : Fin n → EReal) (j : Fin n) : EReal :=
  Ideal.div (Ideal.exp (s j - rowMax s)) (∑ k : Fin n, Ideal.exp (s k - rowMax s))

/-- The value features: the hyperbolic tangent of the embedding's projection by `W_v`. -/
def value (e : Fin 64 → Fin 64 → EReal) (Wv : Fin 64 → Fin 64 → EReal) (n d : Fin 64) : EReal :=
  Ideal.tanh (proj e Wv n d)

/-- The attention weights of agent `i`: the softmax of its row of scores. -/
def weight (e : Fin 64 → Fin 64 → EReal) (Wk Wq : Fin 64 → Fin 64 → EReal) (i j : Fin 64) : EReal :=
  softmax (score (proj e Wk) (proj e Wq) i) j

/-- The node feature: the weighted mean of the value features over the 64 agents. -/
def node (w v : Fin 64 → Fin 64 → EReal) (i d : Fin 64) : EReal :=
  Ideal.div (∑ j : Fin 64, w i j * v j d) sixtyFour

/-- The leaky rectifier: `y` where `y ≥ 0`, else the slope times `y`. -/
def leaky (y : EReal) : EReal :=
  Scalar.select (Ideal.cmp .oge y zeroF) y (slope * y)

/-- The hidden layer: the leaky rectifier of the node features' projection by `W_f1`. -/
def hidden (nd : Fin 64 → Fin 64 → EReal) (Wf1 : Fin 64 → Fin 64 → EReal) (i hh : Fin 64) : EReal :=
  leaky (proj nd Wf1 i hh)

/-- The policy of agent `i`: the softmax of its row of logits, the hidden layer's projection by `W_f2`. -/
def policy (hd : Fin 64 → Fin 64 → EReal) (Wf2 : Fin 16 → Fin 64 → EReal) (i : Fin 64) (a : Fin 16) : EReal :=
  softmax (proj hd Wf2 i) a

/-- The attention weights of a batch item from its observations and the parameters. -/
def weightOf (x : Fin 64 → Fin 128 → EReal) (We : Fin 64 → Fin 128 → EReal) (be : Fin 64 → EReal)
    (Wk Wq : Fin 64 → Fin 64 → EReal) (i j : Fin 64) : EReal :=
  weight (embed x We be) Wk Wq i j

/-- The policy of a batch item from its observations and the parameters. -/
def policyOf (x : Fin 64 → Fin 128 → EReal) (We : Fin 64 → Fin 128 → EReal) (be : Fin 64 → EReal)
    (Wk Wq Wv Wf1 : Fin 64 → Fin 64 → EReal) (Wf2 : Fin 16 → Fin 64 → EReal) (i : Fin 64) (a : Fin 16) : EReal :=
  policy (hidden (node (weight (embed x We be) Wk Wq) (value (embed x We be) Wv)) Wf1) Wf2 i a

/-- The f32 pattern `0x42800000` is the real 64. -/
theorem sixtyFour_eq : sixtyFour = ((64 : ℝ) : EReal) := by
  simp [sixtyFour, Ideal.ofBits, Ideal.ieee, -EReal.coe_mul]; norm_num

/-- The f32 pattern `0x3E000000` is the real 1/8. -/
theorem eighth_eq : eighth = (((1 : ℝ) / 8 : ℝ) : EReal) := by
  simp [eighth, Ideal.ofBits, Ideal.ieee, -EReal.coe_mul]; norm_num

/-- Dividing by the square root of sixty-four is multiplying by an eighth, on every extended real: the root is
    the real 8, which is not zero. -/
theorem div_sqrt_sixtyFour (y : EReal) : Ideal.div y (Ideal.sqrt sixtyFour) = y * eighth := by
  have h8 : Ideal.sqrt sixtyFour = ((8 : ℝ) : EReal) := by
    rw [sixtyFour_eq, Ideal.sqrt_coe, if_neg (by norm_num)]
    congr 1
    rw [show (64 : ℝ) = 8 ^ 2 by norm_num]
    exact Real.sqrt_sq (by norm_num)
  rw [h8, Ideal.div_coe (by norm_num : (8 : ℝ) ≠ 0), eighth_eq]

end Cert.Net

end
-- ==== Proof.KerIdx.lean ====
/-
  The kernel lays a block of 128 batch items × 64 agents out as 8192 rows: agent `n` of batch item `bl` is row
  `64 · bl + n`.
-/
import Idealize.ShloMosaic.Lib.ValueIdx

namespace Cert.KernelIdeal.AtIndex

/-- The row of the flattened [8192, ·] matrices that holds agent `n` of the block's batch item `bl`. -/
def rowIx (bl : Fin 128) (n : Fin 64) : Fin 8192 := ⟨64 * bl.val + n.val, by have := bl.isLt; have := n.isLt; omega⟩

theorem rowIx_val (bl : Fin 128) (n : Fin 64) : (rowIx bl n).val = 64 * bl.val + n.val := rfl

end Cert.KernelIdeal.AtIndex
-- ==== Proof.KerEmb.lean ====
/-
  The kernel body's embedding and value payloads read at an index, at the ideal instance. The body works on a block of
  128 batch items flattened to 8192 rows. Its embedding payload at row `64·bl + n`, column `h` is the network's embedding
  of agent `n` of batch item `bl`; the value payload is the hyperbolic tangent of that embedding's projection by `W_v`.
-/
import proofs.«134333_j32590211842700_1_alg».proof.Proof.Gen.KernelIdeal.Skeleton
import proofs.«134333_j32590211842700_1_alg».proof.Proof.Spec
import proofs.«134333_j32590211842700_1_alg».proof.Proof.KerIdx
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AtIndex

open Cert.KernelIdeal Cert.KernelIdeal.Gen Idealize.ShloMosaic Idealize.ShloMosaic.ValueIdx

/-- The 128-deep contraction's dimension numbers. -/
private abbrev D128 := dot_S8192x128_S128x64_S8192x64_1_0_0_1_n_n
/-- The 64-deep contraction's dimension numbers. -/
private abbrev D64 := dot_S8192x64_S64x64_S8192x64_1_0_0_1_n_n

private theorem lhs128_0 (j : S8192x64.Idx) (k : D128.contr.Idx) : (D128.lhsIdx j k 0 : ℕ) = j 0 := by
  simp [DotDims.lhsIdx, D128, dot_S8192x128_S128x64_S8192x64_1_0_0_1_n_n]; rfl
private theorem lhs128_1 (j : S8192x64.Idx) (k : D128.contr.Idx) : (D128.lhsIdx j k 1 : ℕ) = k ⟨0, by decide⟩ := by
  simp [DotDims.lhsIdx, D128, dot_S8192x128_S128x64_S8192x64_1_0_0_1_n_n]; rfl
private theorem rhs128_0 (j : S8192x64.Idx) (k : D128.contr.Idx) : (D128.rhsIdx j k 0 : ℕ) = k ⟨0, by decide⟩ := by
  simp [DotDims.rhsIdx, D128, dot_S8192x128_S128x64_S8192x64_1_0_0_1_n_n]; rfl
private theorem rhs128_1 (j : S8192x64.Idx) (k : D128.contr.Idx) : (D128.rhsIdx j k 1 : ℕ) = j 1 := by
  simp [DotDims.rhsIdx, D128, dot_S8192x128_S128x64_S8192x64_1_0_0_1_n_n]; rfl

private theorem lhs64_0 (j : S8192x64.Idx) (k : D64.contr.Idx) : (D64.lhsIdx j k 0 : ℕ) = j 0 := by
  simp [DotDims.lhsIdx, D64, dot_S8192x64_S64x64_S8192x64_1_0_0_1_n_n]; rfl
private theorem lhs64_1 (j : S8192x64.Idx) (k : D64.contr.Idx) : (D64.lhsIdx j k 1 : ℕ) = k ⟨0, by decide⟩ := by
  simp [DotDims.lhsIdx, D64, dot_S8192x64_S64x64_S8192x64_1_0_0_1_n_n]; rfl
private theorem rhs64_0 (j : S8192x64.Idx) (k : D64.contr.Idx) : (D64.rhsIdx j k 0 : ℕ) = k ⟨0, by decide⟩ := by
  simp [DotDims.rhsIdx, D64, dot_S8192x64_S64x64_S8192x64_1_0_0_1_n_n]; rfl
private theorem rhs64_1 (j : S8192x64.Idx) (k : D64.contr.Idx) : (D64.rhsIdx j k 1 : ℕ) = j 1 := by
  simp [DotDims.rhsIdx, D64, dot_S8192x64_S64x64_S8192x64_1_0_0_1_n_n]; rfl

/-- The 128-deep contraction's indices are `Fin 128`. -/
private def e128 : D128.contr.Idx ≃ Fin 128 := contrEquiv1 D128 128 (by decide) (by decide)
/-- The 64-deep contraction's indices are `Fin 64`. -/
private def e64 : D64.contr.Idx ≃ Fin 64 := contrEquiv1 D64 64 (by decide) (by decide)

private theorem e128_symm_val (k : Fin 128) : ((e128.symm k) ⟨0, by decide⟩ : ℕ) = k.val :=
  contrEquiv1_symm_val D128 128 (by decide) (by decide) k
private theorem e64_symm_val (k : Fin 64) : ((e64.symm k) ⟨0, by decide⟩ : ℕ) = k.val :=
  contrEquiv1_symm_val D64 64 (by decide) (by decide) k

/-- A matrix `A : [8192, 128]` times the transpose of `W : [64, 128]`, read at `(r, d)`. -/
private theorem matmul128_apply (A : FVec Ideal S8192x128 .bf16) (W : FVec Ideal S64x128 .bf16) (r : Fin 8192) (d : Fin 64) :
    matmul D128 none A (transpose S128x64 [1, 0] W transposes_S64x128_p1_0_S128x64) (constant S8192x64 .f32 0x00000000#32) (ix2 r d)
      = ∑ k : Fin 128, A (ix2 r k) * W (ix2 d k) := by
  refine (Ideal.matmul_constant_zero_apply D128 none A _ (ix2 r d)).trans ?_
  refine (Equiv.sum_comp e128.symm _).symm.trans ?_
  refine Finset.sum_congr rfl fun k _ => ?_
  have hl : D128.lhsIdx (ix2 r d) (e128.symm k) = ix2 r k :=
    Shape.idx_ext₂ (lhs128_0 _ _) ((lhs128_1 _ _).trans (e128_symm_val k))
  have hr : D128.rhsIdx (ix2 r d) (e128.symm k) = ix2 k d :=
    Shape.idx_ext₂ ((rhs128_0 _ _).trans (e128_symm_val k)) (rhs128_1 _ _)
  rw [hl, hr, transpose_ix2_apply]

/-- A matrix `A : [8192, 64]` times the transpose of `W : [64, 64]`, read at `(r, d)`. -/
private theorem matmul64_apply (A : FVec Ideal S8192x64 .bf16) (W : FVec Ideal S64x64 .bf16) (r : Fin 8192) (d : Fin 64) :
    matmul D64 none A (transpose S64x64 [1, 0] W transposes_S64x64_p1_0_S64x64) (constant S8192x64 .f32 0x00000000#32) (ix2 r d)
      = ∑ k : Fin 64, A (ix2 r k) * W (ix2 d k) := by
  refine (Ideal.matmul_constant_zero_apply D64 none A _ (ix2 r d)).trans ?_
  refine (Equiv.sum_comp e64.symm _).symm.trans ?_
  refine Finset.sum_congr rfl fun k _ => ?_
  have hl : D64.lhsIdx (ix2 r d) (e64.symm k) = ix2 r k :=
    Shape.idx_ext₂ (lhs64_0 _ _) ((lhs64_1 _ _).trans (e64_symm_val k))
  have hr : D64.rhsIdx (ix2 r d) (e64.symm k) = ix2 k d :=
    Shape.idx_ext₂ ((rhs64_0 _ _).trans (e64_symm_val k)) (rhs64_1 _ _)
  rw [hl, hr, transpose_ix2_apply]

/-- The block's observations flattened to 8192 rows: row `64·bl + n` is agent `n` of batch item `bl`. -/
private theorem flat128_apply (x0 : FVec Ideal S128x64x128 .f32) (bl : Fin 128) (n : Fin 64) (f : Fin 128) :
    shapeCast S8192x128 x0 shapeCasts_S128x64x128_S8192x128 (ix2 (rowIx bl n) f) = x0 (ix3 bl n f) := by
  refine shapeCast_apply x0 _ _ _ ?_
  rw [Shape.rowMajor_val_two, Shape.rowMajor_val_three]
  show (bl.val * 64 + n.val) * 128 + f.val = (rowIx bl n).val * 128 + f.val
  rw [rowIx_val]; omega

/-- An `[8192, 64]` matrix regrouped as 128 batch items of 64 rows: `(bl, n, d)` reads row `64·bl + n`. -/
private theorem unflat64_apply {α : Type} (v : S8192x64.Idx → α) (bl : Fin 128) (n d : Fin 64) :
    shapeCast S128x64x64 v shapeCasts_S8192x64_S128x64x64 (ix3 bl n d) = v (ix2 (rowIx bl n) d) := by
  refine shapeCast_apply v _ _ _ ?_
  rw [Shape.rowMajor_val_two, Shape.rowMajor_val_three]
  show (rowIx bl n).val * 64 + d.val = (bl.val * 64 + n.val) * 64 + d.val
  rw [rowIx_val]; omega

/-- The embedding payload at agent `n` of batch item `bl`, feature `h`. -/
theorem pay2_apply (x0 : FVec Ideal S128x64x128 .f32) (x1 : FVec Ideal S64x128 .f32) (x2 : FVec Ideal S1x64 .f32)
    (bl : Fin 128) (n h : Fin 64) :
    k0_pay2 (F := Ideal) x0 x1 x2 (ix2 (rowIx bl n) h)
      = Cert.Net.embed (fun n f => x0 (ix3 bl n f)) (fun h f => x1 (ix2 h f)) (fun h => x2 (ix2 (0 : Fin 1) h)) n h := by
  unfold k0_pay2 Cert.Net.embed
  rw [truncf_apply, maximumf_apply, addf_apply, broadcast_apply]
  refine congrArg₂ max (congrArg₂ (· + ·) ?_ ?_) rfl
  · refine (matmul128_apply _ _ (rowIx bl n) h).trans ?_
    refine Finset.sum_congr rfl fun f _ => ?_
    rw [truncf_apply, truncf_apply, flat128_apply]
  · rw [shapeCast_self]
    exact broadcastTo_1b_ab_apply x2 _ (rowIx bl n) h

/-- The value payload at agent `n` of batch item `bl`, feature `d`: the hyperbolic tangent of the embedding row
    contracted with row `d` of `W_v`. -/
theorem pay3_apply (x0 : FVec Ideal S128x64x128 .f32) (x1 : FVec Ideal S64x128 .f32) (x2 : FVec Ideal S1x64 .f32)
    (x5 : FVec Ideal S64x64 .f32) (bl : Fin 128) (n d : Fin 64) :
    k0_pay3 (F := Ideal) x0 x1 x2 x5 (ix3 bl n d)
      = Ideal.tanh (∑ h : Fin 64, k0_pay2 (F := Ideal) x0 x1 x2 (ix2 (rowIx bl n) h) * x5 (ix2 d h)) := by
  unfold k0_pay3
  rw [truncf_apply]
  refine (unflat64_apply _ bl n d).trans ?_
  show Ideal.tanh _ = _
  refine congrArg Ideal.tanh ?_
  refine (matmul64_apply _ _ (rowIx bl n) d).trans ?_
  refine Finset.sum_congr rfl fun h _ => ?_
  rw [truncf_apply]

end Cert.KernelIdeal.AtIndex

end
-- ==== Proof.KerScore.lean ====
/-
  The kernel body's score payload and its row maxima read at an index, at the ideal instance: the score of key agent
  `i` against query agent `j` of a batch item contracts the two projections of the embedding over the feature axis and
  scales by an eighth; the row-maximum payload is the fold of `max` from `-∞` over a row of scores.
-/
import proofs.«134333_j32590211842700_1_alg».proof.Proof.Gen.KernelIdeal.Skeleton
import proofs.«134333_j32590211842700_1_alg».proof.Proof.Spec
import proofs.«134333_j32590211842700_1_alg».proof.Proof.KerIdx
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AtIndex

open Cert.KernelIdeal Cert.KernelIdeal.Gen Idealize.ShloMosaic Idealize.ShloMosaic.ValueIdx

/-- The plain product's record, named for brevity. -/
private abbrev dPlain : DotDims S8192x64 S64x64 S8192x64 := dot_S8192x64_S64x64_S8192x64_1_0_0_1_n_n

private theorem dPlain_lhs (r : Fin 8192) (d c : Fin 64) :
    dPlain.lhsIdx (ix2 r d) ((contrEquiv1 dPlain 64 rfl rfl).symm c) = ix2 r c := by
  have c2 := contrEquiv1_symm_val dPlain 64 rfl rfl c
  funext ax; apply Fin.ext
  match ax with
  | ⟨0, _⟩ => simp [DotDims.lhsIdx, dPlain, dot_S8192x64_S64x64_S8192x64_1_0_0_1_n_n]; rfl
  | ⟨1, _⟩ => simp [DotDims.lhsIdx, dPlain, dot_S8192x64_S64x64_S8192x64_1_0_0_1_n_n]; exact c2

private theorem dPlain_rhs (r : Fin 8192) (d c : Fin 64) :
    dPlain.rhsIdx (ix2 r d) ((contrEquiv1 dPlain 64 rfl rfl).symm c) = ix2 c d := by
  have c2 := contrEquiv1_symm_val dPlain 64 rfl rfl c
  funext ax; apply Fin.ext
  match ax with
  | ⟨0, _⟩ => simp [DotDims.rhsIdx, dPlain, dot_S8192x64_S64x64_S8192x64_1_0_0_1_n_n]; exact c2
  | ⟨1, _⟩ => simp [DotDims.rhsIdx, dPlain, dot_S8192x64_S64x64_S8192x64_1_0_0_1_n_n]; rfl

/-- A [8192,64] matrix times the transpose of a [64,64] weight matrix, read at row `r`, column `d`. -/
private theorem projMat_apply (A : FVec Ideal S8192x64 .bf16) (W : FVec Ideal S64x64 .f32) (r : Fin 8192) (d : Fin 64) :
    matmul dot_S8192x64_S64x64_S8192x64_1_0_0_1_n_n none A
      (transpose S64x64 [1, 0] (truncf .bf16 W bitsLt_bf16_f32) transposes_S64x64_p1_0_S64x64)
      (constant S8192x64 .f32 0x00000000#32) (ix2 r d)
      = ∑ h : Fin 64, A (ix2 r h) * W (ix2 d h) := by
  refine (Ideal.matmul_constant_zero_apply dPlain none A _ (ix2 r d)).trans ?_
  rw [← Equiv.sum_comp (contrEquiv1 dPlain 64 rfl rfl).symm]
  refine Finset.sum_congr rfl fun c _ => ?_
  rw [dPlain_lhs, dPlain_rhs]
  exact congrArg (A (ix2 r c) * ·) (transpose_ix2_apply _ transposes_S64x64_p1_0_S64x64 c d)

/-- The batched product's record, named for brevity. -/
private abbrev dBatch : DotDims S128x64x64 S128x64x64 S128x64x64 := dot_S128x64x64_S128x64x64_S128x64x64_2_2_1_1_0_0

private theorem dBatch_lhs (bl : Fin 128) (i j c : Fin 64) :
    dBatch.lhsIdx (ix3 bl i j) ((contrEquiv1 dBatch 64 rfl rfl).symm c) = ix3 bl i c := by
  have c3 := contrEquiv1_symm_val dBatch 64 rfl rfl c
  funext ax; apply Fin.ext
  match ax with
  | ⟨0, _⟩ => simp [DotDims.lhsIdx, dBatch, dot_S128x64x64_S128x64x64_S128x64x64_2_2_1_1_0_0]; rfl
  | ⟨1, _⟩ => simp [DotDims.lhsIdx, dBatch, dot_S128x64x64_S128x64x64_S128x64x64_2_2_1_1_0_0]; rfl
  | ⟨2, _⟩ => simp [DotDims.lhsIdx, dBatch, dot_S128x64x64_S128x64x64_S128x64x64_2_2_1_1_0_0]; exact c3

private theorem dBatch_rhs (bl : Fin 128) (i j c : Fin 64) :
    dBatch.rhsIdx (ix3 bl i j) ((contrEquiv1 dBatch 64 rfl rfl).symm c) = ix3 bl j c := by
  have c3 := contrEquiv1_symm_val dBatch 64 rfl rfl c
  funext ax; apply Fin.ext
  match ax with
  | ⟨0, _⟩ => simp [DotDims.rhsIdx, dBatch, dot_S128x64x64_S128x64x64_S128x64x64_2_2_1_1_0_0]; rfl
  | ⟨1, _⟩ => simp [DotDims.rhsIdx, dBatch, dot_S128x64x64_S128x64x64_S128x64x64_2_2_1_1_0_0]; rfl
  | ⟨2, _⟩ => simp [DotDims.rhsIdx, dBatch, dot_S128x64x64_S128x64x64_S128x64x64_2_2_1_1_0_0]; exact c3

/-- Two stacks of 128 [64,64] matrices contracted over their last axis, batch item by batch item, read at an index. -/
private theorem scoreMat_apply (P Q : FVec Ideal S128x64x64 .bf16) (bl : Fin 128) (i j : Fin 64) :
    matmul dot_S128x64x64_S128x64x64_S128x64x64_2_2_1_1_0_0 none P Q (constant S128x64x64 .f32 0x00000000#32) (ix3 bl i j)
      = ∑ d : Fin 64, P (ix3 bl i d) * Q (ix3 bl j d) := by
  refine (Ideal.matmul_constant_zero_apply dBatch none P Q (ix3 bl i j)).trans ?_
  rw [← Equiv.sum_comp (contrEquiv1 dBatch 64 rfl rfl).symm]
  refine Finset.sum_congr rfl fun c _ => ?_
  rw [dBatch_lhs, dBatch_rhs]

/-- The [8192,64] matrix regrouped as 128 blocks of 64 rows: agent `n` of batch item `bl` is row `64 · bl + n`. -/
private theorem regroup_apply (v : FVec Ideal S8192x64 .f32) (bl : Fin 128) (n d : Fin 64) :
    truncf .bf16 (shapeCast S128x64x64 v shapeCasts_S8192x64_S128x64x64) bitsLt_bf16_f32 (ix3 bl n d)
      = v (ix2 (rowIx bl n) d) :=
  shapeCast_apply v shapeCasts_S8192x64_S128x64x64 (ix3 bl n d) (ix2 (rowIx bl n) d) (by
    rw [Shape.rowMajor_val_two, Shape.rowMajor_val_three]
    show (64 * bl.val + n.val) * 64 + d.val = (bl.val * 64 + n.val) * 64 + d.val
    omega)

/-- The score payload of batch item `bl` at key agent `i`, query agent `j`. -/
theorem pay4_apply (x0 : FVec Ideal S128x64x128 .f32) (x1 : FVec Ideal S64x128 .f32) (x2 : FVec Ideal S1x64 .f32)
    (x3 x4 : FVec Ideal S64x64 .f32) (bl : Fin 128) (i j : Fin 64) :
    k0_pay4 (F := Ideal) x0 x1 x2 x3 x4 (ix3 bl i j)
      = (∑ d : Fin 64, (∑ h : Fin 64, k0_pay2 (F := Ideal) x0 x1 x2 (ix2 (rowIx bl i) h) * x3 (ix2 d h))
          * (∑ h : Fin 64, k0_pay2 (F := Ideal) x0 x1 x2 (ix2 (rowIx bl j) h) * x4 (ix2 d h))) * Cert.Net.eighth := by
  unfold k0_pay4
  refine (mulf_apply _ _ _).trans ?_
  refine congrArg₂ (· * ·) ?_ rfl
  refine (scoreMat_apply _ _ bl i j).trans ?_
  refine Finset.sum_congr rfl fun d _ => ?_
  refine congrArg₂ (· * ·) ?_ ?_
  · exact (regroup_apply _ bl i d).trans (projMat_apply _ x3 (rowIx bl i) d)
  · exact (regroup_apply _ bl j d).trans (projMat_apply _ x4 (rowIx bl j) d)

/-- The row-maximum payload of batch item `bl` at key agent `i`: the fold of `max` from `-∞` over the row of scores. -/
theorem pay5_apply (x0 : FVec Ideal S128x64x128 .f32) (x1 : FVec Ideal S64x128 .f32) (x2 : FVec Ideal S1x64 .f32)
    (x3 x4 : FVec Ideal S64x64 .f32) (bl : Fin 128) (i : Fin 64) :
    k0_pay5 (F := Ideal) x0 x1 x2 x3 x4 (ix2 bl i)
      = (Finset.univ : Finset (Fin 64)).fold max Cert.Net.negInf (fun j => k0_pay4 (F := Ideal) x0 x1 x2 x3 x4 (ix3 bl i j)) := by
  unfold k0_pay5
  refine (Ideal.multiReduction_maximumf_single (k0_pay4 (F := Ideal) x0 x1 x2 x3 x4) 0xFF800000#32
    reduces_S128x64x64_S128x64 (.inl rfl) rfl (ix2 bl i)).trans ?_
  refine congrArg (fun f => (Finset.univ : Finset (Fin 64)).fold max Cert.Net.negInf f) (funext fun j => ?_)
  exact congrArg (k0_pay4 (F := Ideal) x0 x1 x2 x3 x4)
    (funext fun a => match a with | ⟨0, _⟩ => rfl | ⟨1, _⟩ => rfl | ⟨2, _⟩ => rfl)

end Cert.KernelIdeal.AtIndex

end
-- ==== Proof.KerSoft.lean ====
/-
  The kernel body's attention weights read at an index, at the ideal instance: the softmax of a row of scores (shift
  by the row's maximum, exponential, the row's sum, quotient); and the last payload, which lays the flattened policy
  [8192, 16] back out as [128, 64, 16].
-/
import proofs.«134333_j32590211842700_1_alg».proof.Proof.Gen.KernelIdeal.Skeleton
import proofs.«134333_j32590211842700_1_alg».proof.Proof.Spec
import proofs.«134333_j32590211842700_1_alg».proof.Proof.KerIdx
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AtIndex

open Cert.KernelIdeal Cert.KernelIdeal.Gen Idealize.ShloMosaic Idealize.ShloMosaic.ValueIdx

/-- The index over `(bl, i)` with `j` inserted on the last axis is `(bl, i, j)`. -/
private theorem lift64 (bl : Fin 128) (i j : Fin 64) :
    reduces_S128x64x64_S128x64.lift (ix2 bl i) j = ix3 bl i j := by
  funext c
  match c with
  | ⟨0, _⟩ => exact Fin.ext rfl
  | ⟨1, _⟩ => exact Fin.ext rfl
  | ⟨2, _⟩ => exact Fin.ext rfl

/-- A [128, 64] array given a trailing unit axis and then broadcast along 64 positions reads, at `(bl, i, j)`, its
    element at `(bl, i)`: the two arrays share row-major positions, `64·bl + i`. -/
private theorem castBcast {α : Type} (x : S128x64.Idx → α) (bl : Fin 128) (i j : Fin 64) :
    broadcastTo S128x64x64 (shapeCast S128x64x1 x shapeCasts_S128x64_S128x64x1) broadcasts_S128x64x1_S128x64x64 (ix3 bl i j)
      = x (ix2 bl i) := by
  refine (broadcastTo_apply _ _ (ix3 bl i j) (ix3 bl i (0 : Fin 1)) ?_).trans ?_
  · intro c
    match c with
    | ⟨0, _⟩ => rfl
    | ⟨1, _⟩ => rfl
    | ⟨2, _⟩ => rfl
  · refine shapeCast_apply _ _ _ (ix2 bl i) ?_
    rw [Shape.rowMajor_val_two, Shape.rowMajor_val_three]
    show bl.val * 64 + i.val = (bl.val * 64 + i.val) * 1 + 0
    omega

/-- The sum along the last axis at `(bl, i)` is the sum of the row held there. -/
private theorem sum_apply (x : FVec Ideal S128x64x64 .f32) (bl : Fin 128) (i : Fin 64) :
    multiReduction (F := Ideal) .add [2] S128x64 x 0x00000000#32 reduces_S128x64x64_S128x64 (.inl rfl) rfl (ix2 bl i)
      = ∑ k : Fin 64, x (ix3 bl i k) :=
  (Ideal.multiReduction_add_single x _ reduces_S128x64x64_S128x64 _ _ (ix2 bl i)).trans
    (Finset.sum_congr rfl fun k _ => congrArg x (lift64 bl i k))

/-- The shifted exponential at `(bl, i, k)`: the exponential of the score less its row's maximum, the maximum of `-∞`
    and the row's fold of `max` from `-∞`. -/
private theorem expShift_apply (v35 : FVec Ideal S128x64x64 .f32) (v36 : FVec Ideal S128x64 .f32) (bl : Fin 128) (i k : Fin 64)
    (hmax : v36 (ix2 bl i) = (Finset.univ : Finset (Fin 64)).fold max Cert.Net.negInf (fun j' => v35 (ix3 bl i j'))) :
    exp (subf v35 (broadcastTo S128x64x64
        (shapeCast S128x64x1 (maximumf (broadcast S128x64 (Scalar.ofBits (F := Ideal) .f32 0xFF800000#32)) v36)
          shapeCasts_S128x64_S128x64x1) broadcasts_S128x64x1_S128x64x64)) (ix3 bl i k)
      = Ideal.exp (v35 (ix3 bl i k) - Cert.Net.rowMax (fun j' => v35 (ix3 bl i j'))) := by
  show Ideal.exp (subf v35 _ (ix3 bl i k)) = _
  rw [subf_apply, castBcast, maximumf_apply, broadcast_apply, hmax]
  rfl

/-- The weights payload of batch item `bl` at agents `i`, `j`, for scores `v35` whose row maxima from `-∞` are `v36`:
    the softmax of row `i` of the scores at `j`. -/
theorem pay6_apply (v35 : FVec Ideal S128x64x64 .f32) (v36 : FVec Ideal S128x64 .f32) (bl : Fin 128) (i j : Fin 64)
    (hmax : v36 (ix2 bl i) = (Finset.univ : Finset (Fin 64)).fold max Cert.Net.negInf (fun j' => v35 (ix3 bl i j'))) :
    k0_pay6 (F := Ideal) v35 v36 (Scalar.ofBits (F := Ideal) .f32 0xFF800000#32) (ix3 bl i j)
      = Cert.Net.softmax (fun j' => v35 (ix3 bl i j')) j := by
  unfold k0_pay6 Cert.Net.softmax
  rw [divf_apply, castBcast, sum_apply, expShift_apply v35 v36 bl i j hmax]
  exact congrArg (Ideal.div _) (Finset.sum_congr rfl fun k _ => expShift_apply v35 v36 bl i k hmax)

/-- The stored policy block at batch item `bl`, agent `i`, action `a` is the flattened one at row `64·bl + i`. -/
theorem pay1_apply (v78 : FVec Ideal S8192x16 .f32) (bl : Fin 128) (i : Fin 64) (a : Fin 16) :
    k0_pay1 (F := Ideal) v78 (ix3 bl i a) = v78 (ix2 (rowIx bl i) a) := by
  unfold k0_pay1
  refine shapeCast_apply _ _ _ (ix2 (rowIx bl i) a) ?_
  rw [Shape.rowMajor_val_two, Shape.rowMajor_val_three]
  show (rowIx bl i).val * 16 + a.val = (bl.val * 64 + i.val) * 16 + a.val
  rw [rowIx_val]
  omega

end Cert.KernelIdeal.AtIndex

end
-- ==== Proof.KerPolicy.lean ====
/-
  The kernel body's policy payload read at an index, at the ideal instance: the weights times the values averaged over
  the 64 agents, the leaky rectifier layer, the logits and their softmax, on the block flattened to 8192 rows.
-/
import proofs.«134333_j32590211842700_1_alg».proof.Proof.Gen.KernelIdeal.Skeleton
import proofs.«134333_j32590211842700_1_alg».proof.Proof.Spec
import proofs.«134333_j32590211842700_1_alg».proof.Proof.KerIdx
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AtIndex

open Cert.KernelIdeal Cert.KernelIdeal.Gen Idealize.ShloMosaic Idealize.ShloMosaic.ValueIdx

/-! ## The node features: the weights times the values, averaged over the agents -/

/-- The weighted sum's dimension numbers: batch axis 0, the weights' last axis against the values' middle one. -/
private abbrev DB : DotDims S128x64x64 S128x64x64 S128x64x64 := dot_S128x64x64_S128x64x64_S128x64x64_2_1_1_2_0_0

private theorem lhsB_0 (j : S128x64x64.Idx) (k : DB.contr.Idx) : (DB.lhsIdx j k 0 : ℕ) = j 0 := by
  simp [DotDims.lhsIdx, DB, dot_S128x64x64_S128x64x64_S128x64x64_2_1_1_2_0_0]; rfl
private theorem lhsB_1 (j : S128x64x64.Idx) (k : DB.contr.Idx) : (DB.lhsIdx j k 1 : ℕ) = j 1 := by
  simp [DotDims.lhsIdx, DB, dot_S128x64x64_S128x64x64_S128x64x64_2_1_1_2_0_0]; rfl
private theorem lhsB_2 (j : S128x64x64.Idx) (k : DB.contr.Idx) : (DB.lhsIdx j k 2 : ℕ) = k ⟨0, by decide⟩ := by
  simp [DotDims.lhsIdx, DB, dot_S128x64x64_S128x64x64_S128x64x64_2_1_1_2_0_0]; rfl
private theorem rhsB_0 (j : S128x64x64.Idx) (k : DB.contr.Idx) : (DB.rhsIdx j k 0 : ℕ) = j 0 := by
  simp [DotDims.rhsIdx, DB, dot_S128x64x64_S128x64x64_S128x64x64_2_1_1_2_0_0]; rfl
private theorem rhsB_1 (j : S128x64x64.Idx) (k : DB.contr.Idx) : (DB.rhsIdx j k 1 : ℕ) = k ⟨0, by decide⟩ := by
  simp [DotDims.rhsIdx, DB, dot_S128x64x64_S128x64x64_S128x64x64_2_1_1_2_0_0]; rfl
private theorem rhsB_2 (j : S128x64x64.Idx) (k : DB.contr.Idx) : (DB.rhsIdx j k 2 : ℕ) = j 2 := by
  simp [DotDims.rhsIdx, DB, dot_S128x64x64_S128x64x64_S128x64x64_2_1_1_2_0_0]; rfl

/-- The contraction over the 64 agents, by its one coordinate. -/
private def eB : DB.contr.Idx ≃ Fin 64 := contrEquiv1 DB 64 rfl rfl

private theorem lhsB_ix (bl : Fin 128) (i d c : Fin 64) : DB.lhsIdx (ix3 bl i d) (eB.symm c) = ix3 bl i c := by
  funext ax
  match ax with
  | ⟨0, _⟩ => exact Fin.ext (lhsB_0 _ _)
  | ⟨1, _⟩ => exact Fin.ext (lhsB_1 _ _)
  | ⟨2, _⟩ => exact Fin.ext ((lhsB_2 _ _).trans (contrEquiv1_symm_val DB 64 rfl rfl c))

private theorem rhsB_ix (bl : Fin 128) (i d c : Fin 64) : DB.rhsIdx (ix3 bl i d) (eB.symm c) = ix3 bl c d := by
  funext ax
  match ax with
  | ⟨0, _⟩ => exact Fin.ext (rhsB_0 _ _)
  | ⟨1, _⟩ => exact Fin.ext ((rhsB_1 _ _).trans (contrEquiv1_symm_val DB 64 rfl rfl c))
  | ⟨2, _⟩ => exact Fin.ext (rhsB_2 _ _)

/-- The weighted sum of the values over the agents, per batch item. -/
private theorem wsum_apply (w : FVec Ideal S128x64x64 .f32) (v32 : FVec Ideal S128x64x64 .bf16) (bl : Fin 128) (i d : Fin 64) :
    matmul (F := Ideal) dot_S128x64x64_S128x64x64_S128x64x64_2_1_1_2_0_0 none (truncf .bf16 w bitsLt_bf16_f32) v32
        (constant S128x64x64 .f32 0x00000000#32) (ix3 bl i d)
      = ∑ c : Fin 64, w (ix3 bl i c) * v32 (ix3 bl c d) := by
  refine (Ideal.matmul_constant_zero_apply DB none _ _ _).trans ?_
  refine (Equiv.sum_comp eB.symm _).symm.trans ?_
  refine Finset.sum_congr rfl fun c _ => ?_
  rw [lhsB_ix, rhsB_ix, truncf_apply]

/-- The node features of the block, flattened to 8192 rows. -/
private def nodeV (w : FVec Ideal S128x64x64 .f32) (v32 : FVec Ideal S128x64x64 .bf16) : FVec Ideal S8192x64 .bf16 :=
  truncf .bf16
    (shapeCast S8192x64
      (divf (matmul dot_S128x64x64_S128x64x64_S128x64x64_2_1_1_2_0_0 none (truncf .bf16 w bitsLt_bf16_f32) v32
          (constant S128x64x64 .f32 0x00000000#32))
        (broadcast S128x64x64 (Scalar.ofBits .f32 0x42800000#32)))
      shapeCasts_S128x64x64_S8192x64)
    bitsLt_bf16_f32

private theorem nodeV_apply (w : FVec Ideal S128x64x64 .f32) (v32 : FVec Ideal S128x64x64 .bf16) (bl : Fin 128) (i d : Fin 64) :
    nodeV w v32 (ix2 (rowIx bl i) d)
      = Cert.Net.node (fun i j => w (ix3 bl i j)) (fun j d => v32 (ix3 bl j d)) i d := by
  unfold nodeV
  rw [truncf_apply]
  refine (shapeCast_apply _ _ (ix2 (rowIx bl i) d) (ix3 bl i d) ?_).trans ?_
  · rw [Shape.rowMajor_val_three, Shape.rowMajor_val_two]
    show (bl.val * 64 + i.val) * 64 + d.val = (64 * bl.val + i.val) * 64 + d.val
    omega
  · rw [divf_apply, broadcast_apply, wsum_apply]
    rfl

/-! ## The hidden layer: the node features' projection and its leaky rectifier -/

/-- The hidden layer's dimension numbers. -/
private abbrev D2 : DotDims S8192x64 S64x64 S8192x64 := dot_S8192x64_S64x64_S8192x64_1_0_0_1_n_n

private theorem lhs2_0 (j : S8192x64.Idx) (k : D2.contr.Idx) : (D2.lhsIdx j k 0 : ℕ) = j 0 := by
  simp [DotDims.lhsIdx, D2, dot_S8192x64_S64x64_S8192x64_1_0_0_1_n_n]; rfl
private theorem lhs2_1 (j : S8192x64.Idx) (k : D2.contr.Idx) : (D2.lhsIdx j k 1 : ℕ) = k ⟨0, by decide⟩ := by
  simp [DotDims.lhsIdx, D2, dot_S8192x64_S64x64_S8192x64_1_0_0_1_n_n]; rfl
private theorem rhs2_0 (j : S8192x64.Idx) (k : D2.contr.Idx) : (D2.rhsIdx j k 0 : ℕ) = k ⟨0, by decide⟩ := by
  simp [DotDims.rhsIdx, D2, dot_S8192x64_S64x64_S8192x64_1_0_0_1_n_n]; rfl
private theorem rhs2_1 (j : S8192x64.Idx) (k : D2.contr.Idx) : (D2.rhsIdx j k 1 : ℕ) = j 1 := by
  simp [DotDims.rhsIdx, D2, dot_S8192x64_S64x64_S8192x64_1_0_0_1_n_n]; rfl

/-- The contraction over the 64 node features, by its one coordinate. -/
private def e2 : D2.contr.Idx ≃ Fin 64 := contrEquiv1 D2 64 rfl rfl

private theorem lhs2_ix (r : Fin 8192) (hh c : Fin 64) : D2.lhsIdx (ix2 r hh) (e2.symm c) = ix2 r c := by
  funext ax
  match ax with
  | ⟨0, _⟩ => exact Fin.ext (lhs2_0 _ _)
  | ⟨1, _⟩ => exact Fin.ext ((lhs2_1 _ _).trans (contrEquiv1_symm_val D2 64 rfl rfl c))

private theorem rhs2_ix (r : Fin 8192) (hh c : Fin 64) : D2.rhsIdx (ix2 r hh) (e2.symm c) = ix2 c hh := by
  funext ax
  match ax with
  | ⟨0, _⟩ => exact Fin.ext ((rhs2_0 _ _).trans (contrEquiv1_symm_val D2 64 rfl rfl c))
  | ⟨1, _⟩ => exact Fin.ext (rhs2_1 _ _)

/-- The hidden layer before its rectifier: a row of node features against the transposed weights. -/
private def preV (x : FVec Ideal S8192x64 .bf16) (v54 : FVec Ideal S64x64 .f32) : FVec Ideal S8192x64 .f32 :=
  matmul dot_S8192x64_S64x64_S8192x64_1_0_0_1_n_n none x
    (transpose S64x64 [1, 0] (truncf .bf16 v54 bitsLt_bf16_f32) transposes_S64x64_p1_0_S64x64)
    (constant S8192x64 .f32 0x00000000#32)

private theorem preV_apply (x : FVec Ideal S8192x64 .bf16) (v54 : FVec Ideal S64x64 .f32) (r : Fin 8192) (hh : Fin 64) :
    preV x v54 (ix2 r hh) = ∑ c : Fin 64, x (ix2 r c) * v54 (ix2 hh c) := by
  unfold preV
  refine (Ideal.matmul_constant_zero_apply D2 none _ _ _).trans ?_
  refine (Equiv.sum_comp e2.symm _).symm.trans ?_
  refine Finset.sum_congr rfl fun c _ => ?_
  rw [lhs2_ix, rhs2_ix, transpose_ix2_apply, truncf_apply]

/-- The hidden layer: the leaky rectifier of the projection, elementwise. -/
private def hidV (x : FVec Ideal S8192x64 .bf16) (v54 : FVec Ideal S64x64 .f32) : FVec Ideal S8192x64 .bf16 :=
  truncf .bf16
    (select (cmpf .oge (preV x v54) (broadcast S8192x64 (Scalar.ofBits .f32 0x00000000#32))) (preV x v54)
      (mulf (broadcast S8192x64 (Scalar.ofBits .f32 0x3C23D70A#32)) (preV x v54)))
    bitsLt_bf16_f32

private theorem hidV_apply (x : FVec Ideal S8192x64 .bf16) (v54 : FVec Ideal S64x64 .f32) (r : Fin 8192) (hh : Fin 64) :
    hidV x v54 (ix2 r hh) = Cert.Net.leaky (∑ c : Fin 64, x (ix2 r c) * v54 (ix2 hh c)) := by
  unfold hidV
  rw [truncf_apply, select_apply, cmpf_apply, mulf_apply, broadcast_apply, broadcast_apply, preV_apply]
  rfl

/-! ## The logits: the hidden layer's projection -/

/-- The logits' dimension numbers. -/
private abbrev D3 : DotDims S8192x64 S64x16 S8192x16 := dot_S8192x64_S64x16_S8192x16_1_0_0_1_n_n

private theorem lhs3_0 (j : S8192x16.Idx) (k : D3.contr.Idx) : (D3.lhsIdx j k 0 : ℕ) = j 0 := by
  simp [DotDims.lhsIdx, D3, dot_S8192x64_S64x16_S8192x16_1_0_0_1_n_n]; rfl
private theorem lhs3_1 (j : S8192x16.Idx) (k : D3.contr.Idx) : (D3.lhsIdx j k 1 : ℕ) = k ⟨0, by decide⟩ := by
  simp [DotDims.lhsIdx, D3, dot_S8192x64_S64x16_S8192x16_1_0_0_1_n_n]; rfl
private theorem rhs3_0 (j : S8192x16.Idx) (k : D3.contr.Idx) : (D3.rhsIdx j k 0 : ℕ) = k ⟨0, by decide⟩ := by
  simp [DotDims.rhsIdx, D3, dot_S8192x64_S64x16_S8192x16_1_0_0_1_n_n]; rfl
private theorem rhs3_1 (j : S8192x16.Idx) (k : D3.contr.Idx) : (D3.rhsIdx j k 1 : ℕ) = j 1 := by
  simp [DotDims.rhsIdx, D3, dot_S8192x64_S64x16_S8192x16_1_0_0_1_n_n]; rfl

/-- The contraction over the 64 hidden units, by its one coordinate. -/
private def e3 : D3.contr.Idx ≃ Fin 64 := contrEquiv1 D3 64 rfl rfl

private theorem lhs3_ix (r : Fin 8192) (a : Fin 16) (c : Fin 64) : D3.lhsIdx (ix2 r a) (e3.symm c) = ix2 r c := by
  funext ax
  match ax with
  | ⟨0, _⟩ => exact Fin.ext (lhs3_0 _ _)
  | ⟨1, _⟩ => exact Fin.ext ((lhs3_1 _ _).trans (contrEquiv1_symm_val D3 64 rfl rfl c))

private theorem rhs3_ix (r : Fin 8192) (a : Fin 16) (c : Fin 64) : D3.rhsIdx (ix2 r a) (e3.symm c) = ix2 c a := by
  funext ax
  match ax with
  | ⟨0, _⟩ => exact Fin.ext ((rhs3_0 _ _).trans (contrEquiv1_symm_val D3 64 rfl rfl c))
  | ⟨1, _⟩ => exact Fin.ext (rhs3_1 _ _)

/-- The logits: a row of the hidden layer against the transposed last weights is the row's projection. -/
private theorem logits_apply (x : FVec Ideal S8192x64 .bf16) (v64 : FVec Ideal S16x64 .f32) (r : Fin 8192) (a : Fin 16) :
    matmul (F := Ideal) dot_S8192x64_S64x16_S8192x16_1_0_0_1_n_n none x
        (transpose S64x16 [1, 0] (truncf .bf16 v64 bitsLt_bf16_f32) transposes_S16x64_p1_0_S64x16)
        (constant S8192x16 .f32 0x00000000#32) (ix2 r a)
      = ∑ c : Fin 64, x (ix2 r c) * v64 (ix2 a c) := by
  refine (Ideal.matmul_constant_zero_apply D3 none _ _ _).trans ?_
  refine (Equiv.sum_comp e3.symm _).symm.trans ?_
  refine Finset.sum_congr rfl fun c _ => ?_
  rw [lhs3_ix, rhs3_ix, transpose_ix2_apply, truncf_apply]

/-- The logits of the flattened block. -/
private def logitV (x : FVec Ideal S8192x64 .bf16) (v64 : FVec Ideal S16x64 .f32) : FVec Ideal S8192x16 .f32 :=
  matmul dot_S8192x64_S64x16_S8192x16_1_0_0_1_n_n none x
    (transpose S64x16 [1, 0] (truncf .bf16 v64 bitsLt_bf16_f32) transposes_S16x64_p1_0_S64x16)
    (constant S8192x16 .f32 0x00000000#32)

private theorem logitV_apply (x : FVec Ideal S8192x64 .bf16) (v64 : FVec Ideal S16x64 .f32) (r : Fin 8192) (a : Fin 16) :
    logitV x v64 (ix2 r a) = ∑ c : Fin 64, x (ix2 r c) * v64 (ix2 a c) :=
  logits_apply x v64 r a

/-! ## The softmax over the sixteen actions of a row -/

/-- A row of the flattened block with a coordinate inserted on the action axis is the row's entry at that action. -/
private theorem lift_row (r : Fin 8192) (a : Fin 16) :
    reduces_S8192x16_S8192.lift (s := S8192x16) (t := S8192) (a := 1) (ix1 r) a = ix2 r a := by
  funext ax
  match ax with
  | ⟨0, _⟩ => exact Fin.ext rfl
  | ⟨1, _⟩ => exact Fin.ext rfl

/-- The maximum of a row of logits, broadcast back over the actions. -/
private def rmaxV (y : FVec Ideal S8192x16 .f32) : FVec Ideal S8192x16 .f32 :=
  broadcastTo S8192x16
    (shapeCast S8192x1
      (maximumf (broadcast S8192 (Scalar.ofBits .f32 0xFF800000#32))
        (multiReduction .maximumf [1] S8192 y 0xFF800000#32 reduces_S8192x16_S8192 (.inl rfl) rfl))
      shapeCasts_S8192_S8192x1)
    broadcasts_S8192x1_S8192x16

private theorem rmaxV_apply (y : FVec Ideal S8192x16 .f32) (r : Fin 8192) (a : Fin 16) :
    rmaxV y (ix2 r a) = Cert.Net.rowMax fun a => y (ix2 r a) := by
  unfold rmaxV
  refine (broadcastTo_apply _ _ (ix2 r a) (ix2 r (0 : Fin 1)) fun ax => ?_).trans ?_
  · match ax with
    | ⟨0, _⟩ => rfl
    | ⟨1, _⟩ => rfl
  refine (shapeCast_apply _ _ (ix2 r (0 : Fin 1)) (ix1 r) ?_).trans ?_
  · rw [Shape.rowMajor_val_one, Shape.rowMajor_val_two]
    show r.val = r.val * 1 + 0
    omega
  rw [maximumf_apply, broadcast_apply]
  refine congrArg (max Cert.Net.negInf) ?_
  refine (Ideal.multiReduction_maximumf_single y _ reduces_S8192x16_S8192 _ _ (ix1 r)).trans ?_
  show (Finset.univ : Finset (Fin 16)).fold max Cert.Net.negInf (fun a => y (reduces_S8192x16_S8192.lift (ix1 r) a)) = _
  exact congrArg (fun f => Finset.fold max Cert.Net.negInf f Finset.univ) (funext fun a => congrArg y (lift_row r a))

/-- The exponentials of a row's logits shifted by the row's maximum. -/
private def expV (y : FVec Ideal S8192x16 .f32) : FVec Ideal S8192x16 .f32 :=
  exp (subf y (rmaxV y))

private theorem expV_apply (y : FVec Ideal S8192x16 .f32) (r : Fin 8192) (a : Fin 16) :
    expV y (ix2 r a) = Ideal.exp (y (ix2 r a) - Cert.Net.rowMax fun a => y (ix2 r a)) := by
  show Ideal.exp (subf y (rmaxV y) (ix2 r a)) = _
  rw [subf_apply, rmaxV_apply]

/-- The sum of a row's exponentials, broadcast back over the actions. -/
private def esumV (y : FVec Ideal S8192x16 .f32) : FVec Ideal S8192x16 .f32 :=
  broadcastTo S8192x16
    (shapeCast S8192x1
      (multiReduction .add [1] S8192 (expV y) 0x00000000#32 reduces_S8192x16_S8192 (.inl rfl) rfl)
      shapeCasts_S8192_S8192x1)
    broadcasts_S8192x1_S8192x16

private theorem esumV_apply (y : FVec Ideal S8192x16 .f32) (r : Fin 8192) (a : Fin 16) :
    esumV y (ix2 r a) = ∑ k : Fin 16, Ideal.exp (y (ix2 r k) - Cert.Net.rowMax fun a => y (ix2 r a)) := by
  unfold esumV
  refine (broadcastTo_apply _ _ (ix2 r a) (ix2 r (0 : Fin 1)) fun ax => ?_).trans ?_
  · match ax with
    | ⟨0, _⟩ => rfl
    | ⟨1, _⟩ => rfl
  refine (shapeCast_apply _ _ (ix2 r (0 : Fin 1)) (ix1 r) ?_).trans ?_
  · rw [Shape.rowMajor_val_one, Shape.rowMajor_val_two]
    show r.val = r.val * 1 + 0
    omega
  refine (Ideal.multiReduction_add_single (expV y) _ reduces_S8192x16_S8192 _ _ (ix1 r)).trans ?_
  show ∑ k : Fin 16, expV y (reduces_S8192x16_S8192.lift (ix1 r) k) = _
  refine Finset.sum_congr rfl fun k _ => ?_
  rw [lift_row, expV_apply]

/-- The softmax of the rows of logits. -/
private def softV (y : FVec Ideal S8192x16 .f32) : FVec Ideal S8192x16 .f32 :=
  divf (expV y) (esumV y)

private theorem softV_apply (y : FVec Ideal S8192x16 .f32) (r : Fin 8192) (a : Fin 16) :
    softV y (ix2 r a) = Cert.Net.softmax (fun a => y (ix2 r a)) a := by
  unfold softV
  rw [divf_apply, expV_apply, esumV_apply]
  rfl

/-! ## The payload at an index -/

/-- The policy payload is the four stages composed. -/
private theorem pay7_eq (v32 : FVec Ideal S128x64x64 .bf16) (v35 : FVec Ideal S128x64x64 .f32) (v36 : FVec Ideal S128x64 .f32)
    (cst : Ideal .f32) (v54 : FVec Ideal S64x64 .f32) (v64 : FVec Ideal S16x64 .f32) :
    k0_pay7 (F := Ideal) v32 v35 v36 cst v54 v64
      = softV (logitV (hidV (nodeV (k0_pay6 (F := Ideal) v35 v36 cst) v32) v54) v64) := rfl

/-- The policy payload at agent `i` of batch item `bl`, action `a`, from the values `v32`, the scores `v35`, their row
    maxima `v36` and the two last weight matrices: the network's policy over the weights payload and the values. -/
theorem pay7_apply (v32 : FVec Ideal S128x64x64 .bf16) (v35 : FVec Ideal S128x64x64 .f32) (v36 : FVec Ideal S128x64 .f32)
    (cst : Ideal .f32) (v54 : FVec Ideal S64x64 .f32) (v64 : FVec Ideal S16x64 .f32) (bl : Fin 128) (i : Fin 64) (a : Fin 16) :
    k0_pay7 (F := Ideal) v32 v35 v36 cst v54 v64 (ix2 (rowIx bl i) a)
      = Cert.Net.policy
          (Cert.Net.hidden
            (Cert.Net.node (fun i j => k0_pay6 (F := Ideal) v35 v36 cst (ix3 bl i j)) (fun j d => v32 (ix3 bl j d)))
            (fun hh d => v54 (ix2 hh d)))
          (fun a hh => v64 (ix2 a hh)) i a := by
  rw [pay7_eq, softV_apply]
  unfold Cert.Net.policy
  refine congrArg (fun s => Cert.Net.softmax s a) (funext fun a' => ?_)
  rw [logitV_apply]
  unfold Cert.Net.proj
  refine Finset.sum_congr rfl fun h _ => ?_
  rw [hidV_apply]
  unfold Cert.Net.hidden Cert.Net.proj
  refine congrArg (fun z => Cert.Net.leaky z * v64 (ix2 a' h)) ?_
  refine Finset.sum_congr rfl fun c _ => ?_
  rw [nodeV_apply]

end Cert.KernelIdeal.AtIndex

end
-- ==== Proof.KerOut.lean ====
/-
  What the kernel body stores, read at an index of the block: the weights store at batch item `bl`, agents `i`, `j` is the
  network's attention weight of that batch item, and the policy store at `(bl, i, a)` its policy — of the block's
  observations `x0 bl · ·`, the bias row `x2 0 ·` and the weight blocks.
-/
import proofs.«134333_j32590211842700_1_alg».proof.Proof.KerEmb
import proofs.«134333_j32590211842700_1_alg».proof.Proof.KerScore
import proofs.«134333_j32590211842700_1_alg».proof.Proof.KerSoft
import proofs.«134333_j32590211842700_1_alg».proof.Proof.KerPolicy

noncomputable section

namespace Cert.KernelIdeal.AtIndex

open Cert.KernelIdeal Cert.KernelIdeal.Gen Idealize.ShloMosaic Idealize.ShloMosaic.ValueIdx

/-- A row of the score payload is the network's row of scores of the embedding's two projections. -/
theorem scoreRow_eq (x0 : FVec Ideal S128x64x128 .f32) (x1 : FVec Ideal S64x128 .f32) (x2 : FVec Ideal S1x64 .f32)
    (x3 x4 : FVec Ideal S64x64 .f32) (bl : Fin 128) (i : Fin 64) :
    (fun j => k0_pay4 (F := Ideal) x0 x1 x2 x3 x4 (ix3 bl i j))
      = Cert.Net.score
          (Cert.Net.proj (Cert.Net.embed (fun n f => x0 (ix3 bl n f)) (fun h f => x1 (ix2 h f)) (fun h => x2 (ix2 (0 : Fin 1) h)))
            (fun d h => x3 (ix2 d h)))
          (Cert.Net.proj (Cert.Net.embed (fun n f => x0 (ix3 bl n f)) (fun h f => x1 (ix2 h f)) (fun h => x2 (ix2 (0 : Fin 1) h)))
            (fun d h => x4 (ix2 d h))) i := by
  funext j
  rw [pay4_apply]
  unfold Cert.Net.score Cert.Net.proj
  simp only [pay2_apply]

/-- The weights store at `(bl, i, j)`. -/
theorem weights_apply (x0 : FVec Ideal S128x64x128 .f32) (x1 : FVec Ideal S64x128 .f32) (x2 : FVec Ideal S1x64 .f32)
    (x3 x4 : FVec Ideal S64x64 .f32) (bl : Fin 128) (i j : Fin 64) :
    k0_pay6 (F := Ideal) (k0_pay4 x0 x1 x2 x3 x4) (k0_pay5 x0 x1 x2 x3 x4) (Scalar.ofBits (F := Ideal) .f32 0xFF800000#32) (ix3 bl i j)
      = Cert.Net.weightOf (fun n f => x0 (ix3 bl n f)) (fun h f => x1 (ix2 h f)) (fun h => x2 (ix2 (0 : Fin 1) h))
          (fun d h => x3 (ix2 d h)) (fun d h => x4 (ix2 d h)) i j := by
  rw [pay6_apply _ _ bl i j (pay5_apply x0 x1 x2 x3 x4 bl i), scoreRow_eq]
  rfl

/-- The policy store at `(bl, i, a)`. -/
theorem policy_apply (x0 : FVec Ideal S128x64x128 .f32) (x1 : FVec Ideal S64x128 .f32) (x2 : FVec Ideal S1x64 .f32)
    (x3 x4 x5 x6 : FVec Ideal S64x64 .f32) (x7 : FVec Ideal S16x64 .f32) (bl : Fin 128) (i : Fin 64) (a : Fin 16) :
    k0_pay1 (F := Ideal)
        (k0_pay7 (k0_pay3 x0 x1 x2 x5) (k0_pay4 x0 x1 x2 x3 x4) (k0_pay5 x0 x1 x2 x3 x4)
          (Scalar.ofBits (F := Ideal) .f32 0xFF800000#32) x6 x7) (ix3 bl i a)
      = Cert.Net.policyOf (fun n f => x0 (ix3 bl n f)) (fun h f => x1 (ix2 h f)) (fun h => x2 (ix2 (0 : Fin 1) h))
          (fun d h => x3 (ix2 d h)) (fun d h => x4 (ix2 d h)) (fun d h => x5 (ix2 d h)) (fun hh d => x6 (ix2 hh d))
          (fun a hh => x7 (ix2 a hh)) i a := by
  have hw : (fun i j => k0_pay6 (F := Ideal) (k0_pay4 x0 x1 x2 x3 x4) (k0_pay5 x0 x1 x2 x3 x4)
        (Scalar.ofBits (F := Ideal) .f32 0xFF800000#32) (ix3 bl i j))
      = Cert.Net.weight (Cert.Net.embed (fun n f => x0 (ix3 bl n f)) (fun h f => x1 (ix2 h f)) (fun h => x2 (ix2 (0 : Fin 1) h)))
          (fun d h => x3 (ix2 d h)) (fun d h => x4 (ix2 d h)) :=
    funext fun i => funext fun j => weights_apply x0 x1 x2 x3 x4 bl i j
  have hv : (fun j d => k0_pay3 (F := Ideal) x0 x1 x2 x5 (ix3 bl j d))
      = Cert.Net.value (Cert.Net.embed (fun n f => x0 (ix3 bl n f)) (fun h f => x1 (ix2 h f)) (fun h => x2 (ix2 (0 : Fin 1) h)))
          (fun d h => x5 (ix2 d h)) := by
    funext j d
    rw [pay3_apply]
    unfold Cert.Net.value Cert.Net.proj
    simp only [pay2_apply]
  rw [pay1_apply, pay7_apply, hw, hv]
  rfl

end Cert.KernelIdeal.AtIndex

end
-- ==== Proof.Arrays.lean ====
/-
  The two results as whole arrays: entry `(b, i, ·)` of the weights [4096, 64, 64] and of the policy [4096, 64, 16] is the
  network's weights and policy of batch item `b` — of its observations `X b · ·` and the parameter matrices, read entry
  by entry.
-/
import proofs.«134333_j32590211842700_1_alg».proof.Proof.Spec
import Idealize.ShloMosaic.Lib.ValueIdx

noncomputable section

namespace Cert.Net

open Idealize.ShloMosaic Idealize.ShloMosaic.ValueIdx

/-- The first, second and third coordinate of a rank-3 index, at their literal extents. -/
abbrev co0 {n0 n1 n2 : Nat} (j : (⟨3, ![n0, n1, n2]⟩ : Shape).Idx) : Fin n0 := j 0
abbrev co1 {n0 n1 n2 : Nat} (j : (⟨3, ![n0, n1, n2]⟩ : Shape).Idx) : Fin n1 := j 1
abbrev co2 {n0 n1 n2 : Nat} (j : (⟨3, ![n0, n1, n2]⟩ : Shape).Idx) : Fin n2 := j 2

/-- The attention weights of every batch item, as one array of the argument arrays. -/
def weightArr (X : (⟨3, ![4096, 64, 128]⟩ : Shape).Idx → EReal) (We : (⟨2, ![64, 128]⟩ : Shape).Idx → EReal)
    (be : (⟨1, ![64]⟩ : Shape).Idx → EReal) (Wk Wq : (⟨2, ![64, 64]⟩ : Shape).Idx → EReal) :
    (⟨3, ![4096, 64, 64]⟩ : Shape).Idx → EReal :=
  fun idx => weightOf (fun n f => X (ix3 (co0 idx) n f)) (fun h f => We (ix2 h f)) (fun h => be (ix1 h))
    (fun d h => Wk (ix2 d h)) (fun d h => Wq (ix2 d h)) (co1 idx) (co2 idx)

/-- The policy of every batch item, as one array of the argument arrays. -/
def policyArr (X : (⟨3, ![4096, 64, 128]⟩ : Shape).Idx → EReal) (We : (⟨2, ![64, 128]⟩ : Shape).Idx → EReal)
    (be : (⟨1, ![64]⟩ : Shape).Idx → EReal) (Wk Wq Wv Wf1 : (⟨2, ![64, 64]⟩ : Shape).Idx → EReal)
    (Wf2 : (⟨2, ![16, 64]⟩ : Shape).Idx → EReal) : (⟨3, ![4096, 64, 16]⟩ : Shape).Idx → EReal :=
  fun idx => policyOf (fun n f => X (ix3 (co0 idx) n f)) (fun h f => We (ix2 h f)) (fun h => be (ix1 h))
    (fun d h => Wk (ix2 d h)) (fun d h => Wq (ix2 d h)) (fun d h => Wv (ix2 d h)) (fun hh d => Wf1 (ix2 hh d))
    (fun a hh => Wf2 (ix2 a hh)) (co1 idx) (co2 idx)

theorem weightArr_apply (X : (⟨3, ![4096, 64, 128]⟩ : Shape).Idx → EReal) (We : (⟨2, ![64, 128]⟩ : Shape).Idx → EReal)
    (be : (⟨1, ![64]⟩ : Shape).Idx → EReal) (Wk Wq : (⟨2, ![64, 64]⟩ : Shape).Idx → EReal) (b : Fin 4096) (i j : Fin 64) :
    weightArr X We be Wk Wq (ix3 b i j)
      = weightOf (fun n f => X (ix3 b n f)) (fun h f => We (ix2 h f)) (fun h => be (ix1 h))
          (fun d h => Wk (ix2 d h)) (fun d h => Wq (ix2 d h)) i j := rfl

theorem policyArr_apply (X : (⟨3, ![4096, 64, 128]⟩ : Shape).Idx → EReal) (We : (⟨2, ![64, 128]⟩ : Shape).Idx → EReal)
    (be : (⟨1, ![64]⟩ : Shape).Idx → EReal) (Wk Wq Wv Wf1 : (⟨2, ![64, 64]⟩ : Shape).Idx → EReal)
    (Wf2 : (⟨2, ![16, 64]⟩ : Shape).Idx → EReal) (b : Fin 4096) (i : Fin 64) (a : Fin 16) :
    policyArr X We be Wk Wq Wv Wf1 Wf2 (ix3 b i a)
      = policyOf (fun n f => X (ix3 b n f)) (fun h f => We (ix2 h f)) (fun h => be (ix1 h))
          (fun d h => Wk (ix2 d h)) (fun d h => Wq (ix2 d h)) (fun d h => Wv (ix2 d h)) (fun hh d => Wf1 (ix2 hh d))
          (fun a hh => Wf2 (ix2 a hh)) i a := rfl

end Cert.Net

end
-- ==== Proof.Blocks.lean ====
/-
  From blocks to arrays, for the idealized kernel. The grid has 32 points; point `t` stages batch items
  `128·t … 128·t + 127` of the observations (and of the two results) and the whole of every parameter matrix, the bias
  as the one-row matrix the host reshapes it to. So what point `t` writes back — the body's two stores, read at an
  index of the block by the network's functions of the block's observations — is block `t` of the network's whole
  arrays of the arguments; the 32 blocks tile the batch axis, so after the run each result array IS that whole array.
-/
import proofs.«134333_j32590211842700_1_alg».proof.Proof.Gen.KernelIdeal.Value
import proofs.«134333_j32590211842700_1_alg».proof.Proof.KerOut
import proofs.«134333_j32590211842700_1_alg».proof.Proof.Arrays
import Idealize.ShloMosaic.Lib.StableHlo.Run

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 32 grid points: the observations' window and the two results' windows
    move along the batch axis with the point, every parameter's window stays at block 0. -/
theorem idx_facts : ∀ t : Fin cfg0.N,
    win0_0.index t (0 : Fin 3) = t.val ∧ win0_0.index t (1 : Fin 3) = 0 ∧ win0_0.index t (2 : Fin 3) = 0
    ∧ win0_8.index t (0 : Fin 3) = t.val ∧ win0_8.index t (1 : Fin 3) = 0 ∧ win0_8.index t (2 : Fin 3) = 0
    ∧ win0_9.index t (0 : Fin 3) = t.val ∧ win0_9.index t (1 : Fin 3) = 0 ∧ win0_9.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Batch item `bl` of grid point `t`'s block is batch item `128·t + bl` of the array. -/
def bIx (t : Fin cfg0.N) (bl : Fin 128) : Fin 4096 :=
  ⟨128 * t.val + bl.val, by have := t.isLt; have : cfg0.N = 32 := rfl; have := bl.isLt; omega⟩

theorem bIx_val (t : Fin cfg0.N) (bl : Fin 128) : (bIx t bl).val = 128 * t.val + bl.val := rfl

/-- The bias row the region finds is the bias argument: the host reshaped [64] to [1, 64]. -/
theorem bias_apply (c : Dev nD) (h : Fin 64) :
    (V m c main_v0 : S1x64.Idx → EReal) (ix2 (0 : Fin 1) h) = (m ((c : Thread nD τ).loc main_arg2) : S64.Idx → EReal) (ix1 h) := by
  have e : (V m c main_v0 : S1x64.Idx → EReal)
      = shapeCast S1x64 (m ((c : Thread nD τ).loc main_arg2) : S64.Idx → EReal) shapeCasts_S64_S1x64 := by
    dsimp only [Gen.V, Gen.hostOps0]
    after_results
    rfl
  rw [e]
  refine shapeCast_apply _ _ _ (ix1 h) ?_
  rw [Shape.rowMajor_val_two, Shape.rowMajor_val_one]
  show h.val = 0 * 64 + h.val
  omega

/-! ## The input windows' blocks at a point, each at its literal type -/

abbrev blk0 (c : Dev nD) (t : Fin cfg0.N) : FVec Ideal S128x64x128 .f32 := iblk m c 0 t
abbrev blk1 (c : Dev nD) (t : Fin cfg0.N) : FVec Ideal S64x128 .f32 := iblk m c 1 t
abbrev blk2 (c : Dev nD) (t : Fin cfg0.N) : FVec Ideal S1x64 .f32 := iblk m c 2 t
abbrev blk3 (c : Dev nD) (t : Fin cfg0.N) : FVec Ideal S64x64 .f32 := iblk m c 3 t
abbrev blk4 (c : Dev nD) (t : Fin cfg0.N) : FVec Ideal S64x64 .f32 := iblk m c 4 t
abbrev blk5 (c : Dev nD) (t : Fin cfg0.N) : FVec Ideal S64x64 .f32 := iblk m c 5 t
abbrev blk6 (c : Dev nD) (t : Fin cfg0.N) : FVec Ideal S64x64 .f32 := iblk m c 6 t
abbrev blk7 (c : Dev nD) (t : Fin cfg0.N) : FVec Ideal S16x64 .f32 := iblk m c 7 t

/-- The observations' block at point `t` holds batch items `128·t + bl`. -/
theorem blk0_apply (c : Dev nD) (t : Fin cfg0.N) (bl : Fin 128) (n : Fin 64) (f : Fin 128) :
    blk0 m c t (ix3 bl n f) = V m c main_arg0 (ix3 (bIx t bl) n f) := by
  show V m c main_arg0 (((cfg0.win 0).blk t).view.emb (ix3 bl n f)) = V m c main_arg0 (ix3 (bIx t bl) n f)
  congr 1
  obtain ⟨e00, e01, e02, e80, e81, e82, e90, e91, e92, e10, e11, e20, e21, e30, e31, e40, e41, e50, e51, e60, e61, e70, e71⟩ := idx_facts t
  funext a; apply Fin.ext
  match a with
  | ⟨0, _⟩ => show win0_0.index t (0 : Fin 3) * 128 + 1 * bl.val = 128 * t.val + bl.val; omega
  | ⟨1, _⟩ => show win0_0.index t (1 : Fin 3) * 64 + 1 * n.val = n.val; omega
  | ⟨2, _⟩ => show win0_0.index t (2 : Fin 3) * 128 + 1 * f.val = f.val; omega

theorem blk1_eq (c : Dev nD) (t : Fin cfg0.N) : blk1 m c t = V m c main_arg1 := by
  funext y
  show V m c main_arg1 (((cfg0.win 1).blk t).view.emb y) = V m c main_arg1 y
  congr 1
  obtain ⟨e00, e01, e02, e80, e81, e82, e90, e91, e92, e10, e11, e20, e21, e30, e31, e40, e41, e50, e51, e60, e61, e70, e71⟩ := idx_facts t
  funext a; apply Fin.ext
  match a with
  | ⟨0, _⟩ => show win0_1.index t (0 : Fin 2) * 64 + 1 * (y 0).val = (y 0).val; omega
  | ⟨1, _⟩ => show win0_1.index t (1 : Fin 2) * 128 + 1 * (y 1).val = (y 1).val; omega

theorem blk2_eq (c : Dev nD) (t : Fin cfg0.N) : blk2 m c t = V m c main_v0 := by
  funext y
  show V m c main_v0 (((cfg0.win 2).blk t).view.emb y) = V m c main_v0 y
  congr 1
  obtain ⟨e00, e01, e02, e80, e81, e82, e90, e91, e92, e10, e11, e20, e21, e30, e31, e40, e41, e50, e51, e60, e61, e70, e71⟩ := idx_facts t
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

theorem blk3_eq (c : Dev nD) (t : Fin cfg0.N) : blk3 m c t = V m c main_arg3 := by
  funext y
  show V m c main_arg3 (((cfg0.win 3).blk t).view.emb y) = V m c main_arg3 y
  congr 1
  obtain ⟨e00, e01, e02, e80, e81, e82, e90, e91, e92, e10, e11, e20, e21, e30, e31, e40, e41, e50, e51, e60, e61, e70, e71⟩ := idx_facts t
  funext a; apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem blk4_eq (c : Dev nD) (t : Fin cfg0.N) : blk4 m c t = V m c main_arg4 := by
  funext y
  show V m c main_arg4 (((cfg0.win 4).blk t).view.emb y) = V m c main_arg4 y
  congr 1
  obtain ⟨e00, e01, e02, e80, e81, e82, e90, e91, e92, e10, e11, e20, e21, e30, e31, e40, e41, e50, e51, e60, e61, e70, e71⟩ := idx_facts t
  funext a; apply Fin.ext
  match a with
  | ⟨0, _⟩ => show win0_4.index t (0 : Fin 2) * 64 + 1 * (y 0).val = (y 0).val; omega
  | ⟨1, _⟩ => show win0_4.index t (1 : Fin 2) * 64 + 1 * (y 1).val = (y 1).val; omega

theorem blk5_eq (c : Dev nD) (t : Fin cfg0.N) : blk5 m c t = V m c main_arg5 := by
  funext y
  show V m c main_arg5 (((cfg0.win 5).blk t).view.emb y) = V m c main_arg5 y
  congr 1
  obtain ⟨e00, e01, e02, e80, e81, e82, e90, e91, e92, e10, e11, e20, e21, e30, e31, e40, e41, e50, e51, e60, e61, e70, e71⟩ := idx_facts t
  funext a; apply Fin.ext
  match a with
  | ⟨0, _⟩ => show win0_5.index t (0 : Fin 2) * 64 + 1 * (y 0).val = (y 0).val; omega
  | ⟨1, _⟩ => show win0_5.index t (1 : Fin 2) * 64 + 1 * (y 1).val = (y 1).val; omega

theorem blk6_eq (c : Dev nD) (t : Fin cfg0.N) : blk6 m c t = V m c main_arg6 := by
  funext y
  show V m c main_arg6 (((cfg0.win 6).blk t).view.emb y) = V m c main_arg6 y
  congr 1
  obtain ⟨e00, e01, e02, e80, e81, e82, e90, e91, e92, e10, e11, e20, e21, e30, e31, e40, e41, e50, e51, e60, e61, e70, e71⟩ := idx_facts t
  funext a; apply Fin.ext
  match a with
  | ⟨0, _⟩ => show win0_6.index t (0 : Fin 2) * 64 + 1 * (y 0).val = (y 0).val; omega
  | ⟨1, _⟩ => show win0_6.index t (1 : Fin 2) * 64 + 1 * (y 1).val = (y 1).val; omega

theorem blk7_eq (c : Dev nD) (t : Fin cfg0.N) : blk7 m c t = V m c main_arg7 := by
  funext y
  show V m c main_arg7 (((cfg0.win 7).blk t).view.emb y) = V m c main_arg7 y
  congr 1
  obtain ⟨e00, e01, e02, e80, e81, e82, e90, e91, e92, e10, e11, e20, e21, e30, e31, e40, e41, e50, e51, e60, e61, e70, e71⟩ := idx_facts t
  funext a; apply Fin.ext
  match a with
  | ⟨0, _⟩ => show win0_7.index t (0 : Fin 2) * 16 + 1 * (y 0).val = (y 0).val; omega
  | ⟨1, _⟩ => show win0_7.index t (1 : Fin 2) * 64 + 1 * (y 1).val = (y 1).val; omega

/-- Where the policy's block at point `t` sits in the array. -/
theorem emb8 (t : Fin cfg0.N) (bl : Fin 128) (i : Fin 64) (a : Fin 16) :
    ((cfg0.win 8).blk t).view.emb (ix3 bl i a) = ix3 (bIx t bl) i a := by
  obtain ⟨e00, e01, e02, e80, e81, e82, e90, e91, e92, e10, e11, e20, e21, e30, e31, e40, e41, e50, e51, e60, e61, e70, e71⟩ := idx_facts t
  funext ax; apply Fin.ext
  match ax with
  | ⟨0, _⟩ => show win0_8.index t (0 : Fin 3) * 128 + 1 * bl.val = 128 * t.val + bl.val; omega
  | ⟨1, _⟩ => show win0_8.index t (1 : Fin 3) * 64 + 1 * i.val = i.val; omega
  | ⟨2, _⟩ => show win0_8.index t (2 : Fin 3) * 16 + 1 * a.val = a.val; omega

/-- Where the weights' block at point `t` sits in the array. -/
theorem emb9 (t : Fin cfg0.N) (bl : Fin 128) (i j : Fin 64) :
    ((cfg0.win 9).blk t).view.emb (ix3 bl i j) = ix3 (bIx t bl) i j := by
  obtain ⟨e00, e01, e02, e80, e81, e82, e90, e91, e92, e10, e11, e20, e21, e30, e31, e40, e41, e50, e51, e60, e61, e70, e71⟩ := idx_facts t
  funext ax; apply Fin.ext
  match ax with
  | ⟨0, _⟩ => show win0_9.index t (0 : Fin 3) * 128 + 1 * bl.val = 128 * t.val + bl.val; omega
  | ⟨1, _⟩ => show win0_9.index t (1 : Fin 3) * 64 + 1 * i.val = i.val; omega
  | ⟨2, _⟩ => show win0_9.index t (2 : Fin 3) * 64 + 1 * j.val = j.val; omega

/-! ## The arguments as the launch gives them -/

abbrev a0 (c : Dev nD) : FVec Ideal S4096x64x128 .f32 := m ((c : Thread nD τ).loc main_arg0)
abbrev a1 (c : Dev nD) : FVec Ideal S64x128 .f32 := m ((c : Thread nD τ).loc main_arg1)
abbrev a2 (c : Dev nD) : FVec Ideal S64 .f32 := m ((c : Thread nD τ).loc main_arg2)
abbrev a3 (c : Dev nD) : FVec Ideal S64x64 .f32 := m ((c : Thread nD τ).loc main_arg3)
abbrev a4 (c : Dev nD) : FVec Ideal S64x64 .f32 := m ((c : Thread nD τ).loc main_arg4)
abbrev a5 (c : Dev nD) : FVec Ideal S64x64 .f32 := m ((c : Thread nD τ).loc main_arg5)
abbrev a6 (c : Dev nD) : FVec Ideal S64x64 .f32 := m ((c : Thread nD τ).loc main_arg6)
abbrev a7 (c : Dev nD) : FVec Ideal S16x64 .f32 := m ((c : Thread nD τ).loc main_arg7)

/-- The embedding parameters and observations of the block's batch item `bl`, read through the blocks, are the
    arguments' at batch item `128·t + bl`. -/
theorem obs_eq (c : Dev nD) (t : Fin cfg0.N) (bl : Fin 128) :
    (fun n f => blk0 m c t (ix3 bl n f)) = fun n f => a0 m c (ix3 (bIx t bl) n f) :=
  funext fun n => funext fun f => (blk0_apply m c t bl n f).trans (congrFun (V_main_arg0 m c) _)

theorem biasRow_eq (c : Dev nD) (t : Fin cfg0.N) :
    (fun h => blk2 m c t (ix2 (0 : Fin 1) h)) = fun h => a2 m c (ix1 h) :=
  funext fun h => (congrFun (blk2_eq m c t) _).trans (bias_apply m c h)

/-- WHAT POINT `t` WRITES BACK to the weights array is block `t` of the network's weights array of the arguments. -/
theorem flushed9_eq (c : Dev nD) (t : Fin cfg0.N) :
    (dats m 0 c).flushed 9 t = ((cfg0.win 9).blk t).view.read (Elt Ideal)
      (Cert.Net.weightArr (a0 m c) (a1 m c) (a2 m c) (a3 m c) (a4 m c)) := by
  rw [flushed9]
  unfold out0_9
  rw [View.canon_unit_zero hz3]
  simp only [View.ld_unit_zero (S := S128x64x128) hz3, View.ld_unit_zero (S := S64x128) hz2,
    View.ld_unit_zero (S := S1x64) hz2, View.ld_unit_zero (S := S64x64) hz2]
  funext y
  obtain ⟨bl, i, j, rfl⟩ : ∃ (bl : Fin 128) (i j : Fin 64), y = ix3 bl i j := ⟨y 0, y 1, y 2, eq_ix3 y⟩
  show k0_pay6 (F := Ideal) (k0_pay4 (blk0 m c t) (blk1 m c t) (blk2 m c t) (blk3 m c t) (blk4 m c t))
      (k0_pay5 (blk0 m c t) (blk1 m c t) (blk2 m c t) (blk3 m c t) (blk4 m c t))
      (Scalar.ofBits (F := Ideal) .f32 0xFF800000#32) (ix3 bl i j)
    = Cert.Net.weightArr (a0 m c) (a1 m c) (a2 m c) (a3 m c) (a4 m c) (((cfg0.win 9).blk t).view.emb (ix3 bl i j))
  rw [emb9, Cert.Net.weightArr_apply, AtIndex.weights_apply, obs_eq, biasRow_eq, blk1_eq, blk3_eq, blk4_eq,
    V_main_arg1, V_main_arg3, V_main_arg4]

/-- WHAT POINT `t` WRITES BACK to the policy array is block `t` of the network's policy array of the arguments. -/
theorem flushed8_eq (c : Dev nD) (t : Fin cfg0.N) :
    (dats m 0 c).flushed 8 t = ((cfg0.win 8).blk t).view.read (Elt Ideal)
      (Cert.Net.policyArr (a0 m c) (a1 m c) (a2 m c) (a3 m c) (a4 m c) (a5 m c) (a6 m c) (a7 m c)) := by
  rw [flushed8]
  unfold out0_8
  rw [View.canon_unit_zero hz3]
  simp only [View.ld_unit_zero (S := S128x64x128) hz3, View.ld_unit_zero (S := S64x128) hz2,
    View.ld_unit_zero (S := S1x64) hz2, View.ld_unit_zero (S := S64x64) hz2, View.ld_unit_zero (S := S16x64) hz2]
  funext y
  obtain ⟨bl, i, a, rfl⟩ : ∃ (bl : Fin 128) (i : Fin 64) (a : Fin 16), y = ix3 bl i a := ⟨y 0, y 1, y 2, eq_ix3 y⟩
  show k0_pay1 (F := Ideal)
      (k0_pay7 (k0_pay3 (blk0 m c t) (blk1 m c t) (blk2 m c t) (blk5 m c t))
        (k0_pay4 (blk0 m c t) (blk1 m c t) (blk2 m c t) (blk3 m c t) (blk4 m c t))
        (k0_pay5 (blk0 m c t) (blk1 m c t) (blk2 m c t) (blk3 m c t) (blk4 m c t))
        (Scalar.ofBits (F := Ideal) .f32 0xFF800000#32) (blk6 m c t) (blk7 m c t)) (ix3 bl i a)
    = Cert.Net.policyArr (a0 m c) (a1 m c) (a2 m c) (a3 m c) (a4 m c) (a5 m c) (a6 m c) (a7 m c)
        (((cfg0.win 8).blk t).view.emb (ix3 bl i a))
  rw [emb8, Cert.Net.policyArr_apply, AtIndex.policy_apply, obs_eq, biasRow_eq, blk1_eq, blk3_eq, blk4_eq, blk5_eq,
    blk6_eq, blk7_eq, V_main_arg1, V_main_arg3, V_main_arg4, V_main_arg5, V_main_arg6, V_main_arg7]

/-- An index of the weights array is in point `t`'s block iff each coordinate is in the block's range on its axis. -/
theorem mem_blk9 (t : Fin cfg0.N) (i : S4096x64x64.Idx) :
    i ∈ ((cfg0.win 9).blk t).view.set ↔ ∀ a : Fin 3, win0_9.index t a * S128x64x64.size a ≤ (i a).val
      ∧ (i a).val < win0_9.index t a * S128x64x64.size a + S128x64x64.size a := by
  show i ∈ ((View.whole main_v1_1).slice (win0_9.rect t)).set ↔ _
  rw [View.set_slice_whole, Rect.mem_set_unit]
  exact Iff.rfl

theorem mem_blk8 (t : Fin cfg0.N) (i : S4096x64x16.Idx) :
    i ∈ ((cfg0.win 8).blk t).view.set ↔ ∀ a : Fin 3, win0_8.index t a * S128x64x16.size a ≤ (i a).val
      ∧ (i a).val < win0_8.index t a * S128x64x16.size a + S128x64x16.size a := by
  show i ∈ ((View.whole main_v1_0).slice (win0_8.rect t)).set ↔ _
  rw [View.set_slice_whole, Rect.mem_set_unit]
  exact Iff.rfl

/-- The point whose block holds batch item `b`: `b / 128`. -/
def pointOf (b : Nat) (hb : b < 4096) : Fin cfg0.N := ⟨b / 128, by have : cfg0.N = 32 := rfl; omega⟩

/-- Every index of the weights array lies in some point's block: the blocks tile the batch axis. -/
theorem cover9 (i : S4096x64x64.Idx) : ∃ t : Fin cfg0.N, (cfg0.win 9).flush t = true ∧ i ∈ ((cfg0.win 9).blk t).view.set := by
  have h0 : (i 0).val < 4096 := (i 0).isLt
  have h1 : (i 1).val < 64 := (i 1).isLt
  have h2 : (i 2).val < 64 := (i 2).isLt
  refine ⟨pointOf (i 0).val h0, flush0_9 _, ?_⟩
  obtain ⟨e00, e01, e02, e80, e81, e82, e90, e91, e92, e10, e11, e20, e21, e30, e31, e40, e41, e50, e51, e60, e61, e70, e71⟩ := idx_facts (pointOf (i 0).val h0)
  have hp : (pointOf (i 0).val h0).val = (i 0).val / 128 := rfl
  rw [mem_blk9]
  intro a
  match a with
  | ⟨0, _⟩ => show win0_9.index _ (0 : Fin 3) * 128 ≤ (i 0).val ∧ (i 0).val < win0_9.index _ (0 : Fin 3) * 128 + 128; omega
  | ⟨1, _⟩ => show win0_9.index _ (1 : Fin 3) * 64 ≤ (i 1).val ∧ (i 1).val < win0_9.index _ (1 : Fin 3) * 64 + 64; omega
  | ⟨2, _⟩ => show win0_9.index _ (2 : Fin 3) * 64 ≤ (i 2).val ∧ (i 2).val < win0_9.index _ (2 : Fin 3) * 64 + 64; omega

theorem cover8 (i : S4096x64x16.Idx) : ∃ t : Fin cfg0.N, (cfg0.win 8).flush t = true ∧ i ∈ ((cfg0.win 8).blk t).view.set := by
  have h0 : (i 0).val < 4096 := (i 0).isLt
  have h1 : (i 1).val < 64 := (i 1).isLt
  have h2 : (i 2).val < 16 := (i 2).isLt
  refine ⟨pointOf (i 0).val h0, flush0_8 _, ?_⟩
  obtain ⟨e00, e01, e02, e80, e81, e82, e90, e91, e92, e10, e11, e20, e21, e30, e31, e40, e41, e50, e51, e60, e61, e70, e71⟩ := idx_facts (pointOf (i 0).val h0)
  have hp : (pointOf (i 0).val h0).val = (i 0).val / 128 := rfl
  rw [mem_blk8]
  intro a
  match a with
  | ⟨0, _⟩ => show win0_8.index _ (0 : Fin 3) * 128 ≤ (i 0).val ∧ (i 0).val < win0_8.index _ (0 : Fin 3) * 128 + 128; omega
  | ⟨1, _⟩ => show win0_8.index _ (1 : Fin 3) * 64 ≤ (i 1).val ∧ (i 1).val < win0_8.index _ (1 : Fin 3) * 64 + 64; omega
  | ⟨2, _⟩ => show win0_8.index _ (2 : Fin 3) * 16 ≤ (i 2).val ∧ (i 2).val < win0_8.index _ (2 : Fin 3) * 16 + 16; omega

/-- THE WEIGHTS ARRAY after the run is the network's weights array of the arguments. -/
theorem final9 (c : Dev nD) :
    (dats m 0 c).arrAt 9 cfg0.N = Cert.Net.weightArr (a0 m c) (a1 m c) (a2 m c) (a3 m c) (a4 m c) :=
  (dats m 0 c).arrAt_eq_of_cover 9 _ (fun t _ => flushed9_eq m c t) cover9

/-- THE POLICY ARRAY after the run is the network's policy array of the arguments. -/
theorem final8 (c : Dev nD) :
    (dats m 0 c).arrAt 8 cfg0.N
      = Cert.Net.policyArr (a0 m c) (a1 m c) (a2 m c) (a3 m c) (a4 m c) (a5 m c) (a6 m c) (a7 m c) :=
  (dats m 0 c).arrAt_eq_of_cover 8 _ (fun t _ => flushed8_eq m c t) cover8

/-- The idealized kernel's run: every weakly fair execution terminates with the policy and the weights at the
    network's whole arrays of the arguments, and the arguments unchanged. -/
theorem run : θ_run defs (onTc (τ := τ) (main (F := Ideal))) ⟨m, fun _ => 0, ρ⟩ fun r => ∀ c : Dev nD,
      r.2.mem ((c : Thread nD τ).loc main_v1_0)
          = Cert.Net.policyArr (a0 m c) (a1 m c) (a2 m c) (a3 m c) (a4 m c) (a5 m c) (a6 m c) (a7 m c)
      ∧ r.2.mem ((c : Thread nD τ).loc main_v1_1) = Cert.Net.weightArr (a0 m c) (a1 m c) (a2 m c) (a3 m c) (a4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c), (h c).2.2⟩)
    (run_blocks m ρ)

end Cert.KernelIdeal.Whole

end
-- ==== Proof.RefTerm.lean ====
/-
  The reference's two results as pure terms of its arguments: the host operations of its @main composed, stage by
  stage, at any float instance. The reference embeds every agent's observation (a contraction with `W_emb`, the bias
  broadcast along the feature axis, a maximum with zero), projects the embedding to keys, queries and values, scores
  keys against queries batch by batch and divides by the square root of 64, takes a softmax along the last axis
  (maximum from `-∞`, shift, exponential, sum from zero, quotient), averages the values under those weights, and sends
  the result through a leaky rectifier layer and a second softmax. Each definition below is one of those stages, in
  the operations' own spelling; nothing is proved here.
-/
import proofs.«134333_j32590211842700_1_alg».proof.Proof.Gen.ReferenceIdeal

noncomputable section

namespace Cert.ReferenceIdeal.Term

open Cert.ReferenceIdeal Cert.ReferenceIdeal.Gen Idealize.ShloMosaic

variable {F : FTy → Type} [FloatOps F]

/-- A zero scalar broadcast over a [4096, 64, 64] array. -/
def zeros : FVec F S4096x64x64 .f32 :=
  broadcastInDim S4096x64x64 ![] bcast_S_S4096x64x64 (constant S_ .f32 0x00000000#32)

/-- The embedding: observations contracted with `W_emb` over the feature axis, plus the bias along the last axis,
    rectified. -/
def emb (X : FVec F S4096x64x128 .f32) (We : FVec F S64x128 .f32) (be : FVec F S64 .f32) : FVec F S4096x64x64 .f32 :=
  maximumf
    (addf (Host.dotGeneral dot_S4096x64x128_S64x128_S4096x64x64_2_1_01_0_n_n none X We)
      (broadcastInDim S4096x64x64 ![0, 1, 2] bcast_S1x1x64_S4096x64x64_0_1_2
        (broadcastInDim S1x1x64 ![2] bcast_S64_S1x1x64_2 be)))
    zeros

/-- A [4096, 64, 64] array contracted over its last axis with the last axis of a [64, 64] matrix. -/
def lin (e : FVec F S4096x64x64 .f32) (W : FVec F S64x64 .f32) : FVec F S4096x64x64 .f32 :=
  Host.dotGeneral dot_S4096x64x64_S64x64_S4096x64x64_2_1_01_0_n_n none e W

/-- Keys against queries, batch by batch, divided by the square root of 64. -/
def scores (k q : FVec F S4096x64x64 .f32) : FVec F S4096x64x64 .f32 :=
  Host.divf (Host.dotGeneral dot_S4096x64x64_S4096x64x64_S4096x64x64_2_2_1_1_0_0 none k q)
    (broadcastInDim S4096x64x64 ![] bcast_S_S4096x64x64 (Host.sqrt (constant S_ .f32 0x42800000#32)))

/-- The maximum along the last axis of a [4096, 64, 64] array, from `-∞`, and once more against `-∞`. -/
def rowMax64 (s : FVec F S4096x64x64 .f32) : FVec F S4096x64 .f32 :=
  maximumf (broadcastInDim S4096x64 ![] bcast_S_S4096x64 (constant S_ .f32 0xFF800000#32))
    (Host.reduce FloatOps.maximumf s (constant S_ .f32 0xFF800000#32) reducesTo_S4096x64x64_S4096x64_d2 h_S_)

/-- The exponentials of a [4096, 64, 64] array shifted by its rows' maxima. -/
def expShift64 (s : FVec F S4096x64x64 .f32) : FVec F S4096x64x64 .f32 :=
  Host.exp (subf s (broadcastInDim S4096x64x64 ![0, 1, 2] bcast_S4096x64x1_S4096x64x64_0_1_2
    (broadcastInDim S4096x64x1 ![0, 1] bcast_S4096x64_S4096x64x1_0_1 (rowMax64 s))))

/-- The softmax along the last axis of a [4096, 64, 64] array. -/
def softmax64 (s : FVec F S4096x64x64 .f32) : FVec F S4096x64x64 .f32 :=
  Host.divf (expShift64 s) (broadcastInDim S4096x64x64 ![0, 1, 2] bcast_S4096x64x1_S4096x64x64_0_1_2
    (broadcastInDim S4096x64x1 ![0, 1] bcast_S4096x64_S4096x64x1_0_1
      (Host.reduceAdd (expShift64 s) (constant S_ .f32 0x00000000#32) reducesTo_S4096x64x64_S4096x64_d2 h_S_)))

/-- The attention weights. -/
def weight (X : FVec F S4096x64x128 .f32) (We : FVec F S64x128 .f32) (be : FVec F S64 .f32)
    (Wk Wq : FVec F S64x64 .f32) : FVec F S4096x64x64 .f32 :=
  softmax64 (scores (lin (emb X We be) Wk) (lin (emb X We be) Wq))

/-- The value features. -/
def value (e : FVec F S4096x64x64 .f32) (Wv : FVec F S64x64 .f32) : FVec F S4096x64x64 .f32 :=
  Host.tanh (lin e Wv)

/-- The node features: weights times values batch by batch, divided by 64. -/
def node (w v : FVec F S4096x64x64 .f32) : FVec F S4096x64x64 .f32 :=
  Host.divf (Host.dotGeneral dot_S4096x64x64_S4096x64x64_S4096x64x64_2_1_1_2_0_0 none w v)
    (broadcastInDim S4096x64x64 ![] bcast_S_S4096x64x64 (constant S_ .f32 0x42800000#32))

/-- The leaky rectifier, elementwise. -/
def leaky (y : FVec F S4096x64x64 .f32) : FVec F S4096x64x64 .f32 :=
  select (cmpf .oge y zeros) y
    (mulf (broadcastInDim S4096x64x64 ![] bcast_S_S4096x64x64 (constant S_ .f32 0x3C23D70A#32)) y)

/-- The hidden layer. -/
def hidden (nd : FVec F S4096x64x64 .f32) (Wf1 : FVec F S64x64 .f32) : FVec F S4096x64x64 .f32 :=
  leaky (lin nd Wf1)

/-- The logits: the hidden layer contracted with `W_f2`. -/
def logits (hd : FVec F S4096x64x64 .f32) (Wf2 : FVec F S16x64 .f32) : FVec F S4096x64x16 .f32 :=
  Host.dotGeneral dot_S4096x64x64_S16x64_S4096x64x16_2_1_01_0_n_n none hd Wf2

/-- The maximum along the last axis of a [4096, 64, 16] array, from `-∞`, and once more against `-∞`. -/
def rowMax16 (s : FVec F S4096x64x16 .f32) : FVec F S4096x64 .f32 :=
  maximumf (broadcastInDim S4096x64 ![] bcast_S_S4096x64 (constant S_ .f32 0xFF800000#32))
    (Host.reduce FloatOps.maximumf s (constant S_ .f32 0xFF800000#32) reducesTo_S4096x64x16_S4096x64_d2 h_S_)

/-- The exponentials of a [4096, 64, 16] array shifted by its rows' maxima. -/
def expShift16 (s : FVec F S4096x64x16 .f32) : FVec F S4096x64x16 .f32 :=
  Host.exp (subf s (broadcastInDim S4096x64x16 ![0, 1, 2] bcast_S4096x64x1_S4096x64x16_0_1_2
    (broadcastInDim S4096x64x1 ![0, 1] bcast_S4096x64_S4096x64x1_0_1 (rowMax16 s))))

/-- The softmax along the last axis of a [4096, 64, 16] array. -/
def softmax16 (s : FVec F S4096x64x16 .f32) : FVec F S4096x64x16 .f32 :=
  Host.divf (expShift16 s) (broadcastInDim S4096x64x16 ![0, 1, 2] bcast_S4096x64x1_S4096x64x16_0_1_2
    (broadcastInDim S4096x64x1 ![0, 1] bcast_S4096x64_S4096x64x1_0_1
      (Host.reduceAdd (expShift16 s) (constant S_ .f32 0x00000000#32) reducesTo_S4096x64x16_S4096x64_d2 h_S_)))

/-- The policy. -/
def policy (X : FVec F S4096x64x128 .f32) (We : FVec F S64x128 .f32) (be : FVec F S64 .f32)
    (Wk Wq Wv Wf1 : FVec F S64x64 .f32) (Wf2 : FVec F S16x64 .f32) : FVec F S4096x64x16 .f32 :=
  softmax16 (logits (hidden (node (weight X We be Wk Wq) (value (emb X We be) Wv)) Wf1) Wf2)

end Cert.ReferenceIdeal.Term

end
-- ==== Proof.RefReadA.lean ====
/-
  The reference's plain contractions read at an index, at the ideal instance. At batch item `b` the embedding is the
  network's embedding of that item's observations; a projection contracts the last axis of a [4096, 64, 64] array with
  the last axis of a weight matrix; the value features are the hyperbolic tangent of one; the logits contract the hidden
  layer with `W_f2`.
-/
import proofs.«134333_j32590211842700_1_alg».proof.Proof.RefTerm
import proofs.«134333_j32590211842700_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.AtIndex

open Cert.ReferenceIdeal Cert.ReferenceIdeal.Gen Idealize.ShloMosaic Idealize.ShloMosaic.ValueIdx

/-- The left operand's index of the embedding's contraction at contraction position `c`. -/
private theorem emb_lhs (b : Fin 4096) (n : Fin 64) (d : Fin 64) (c : Fin 128) :
    dot_S4096x64x128_S64x128_S4096x64x64_2_1_01_0_n_n.lhsIdx (ix3 b n d)
      ((contrEquiv1 dot_S4096x64x128_S64x128_S4096x64x64_2_1_01_0_n_n 128 rfl rfl).symm c) = ix3 b n c := by
  have c3 := contrEquiv1_symm_val dot_S4096x64x128_S64x128_S4096x64x64_2_1_01_0_n_n 128 rfl rfl c
  funext ax; apply Fin.ext
  match ax with
  | ⟨0, _⟩ => simp [DotDims.lhsIdx, dot_S4096x64x128_S64x128_S4096x64x64_2_1_01_0_n_n]; rfl
  | ⟨1, _⟩ => simp [DotDims.lhsIdx, dot_S4096x64x128_S64x128_S4096x64x64_2_1_01_0_n_n]; rfl
  | ⟨2, _⟩ => simp [DotDims.lhsIdx, dot_S4096x64x128_S64x128_S4096x64x64_2_1_01_0_n_n]; exact c3

/-- The right operand's index of the embedding's contraction at contraction position `c`. -/
private theorem emb_rhs (b : Fin 4096) (n : Fin 64) (d : Fin 64) (c : Fin 128) :
    dot_S4096x64x128_S64x128_S4096x64x64_2_1_01_0_n_n.rhsIdx (ix3 b n d)
      ((contrEquiv1 dot_S4096x64x128_S64x128_S4096x64x64_2_1_01_0_n_n 128 rfl rfl).symm c) = ix2 d c := by
  have c3 := contrEquiv1_symm_val dot_S4096x64x128_S64x128_S4096x64x64_2_1_01_0_n_n 128 rfl rfl c
  funext ax; apply Fin.ext
  match ax with
  | ⟨0, _⟩ => simp [DotDims.rhsIdx, dot_S4096x64x128_S64x128_S4096x64x64_2_1_01_0_n_n]; rfl
  | ⟨1, _⟩ => simp [DotDims.rhsIdx, dot_S4096x64x128_S64x128_S4096x64x64_2_1_01_0_n_n]; exact c3

/-- The bias broadcast along the last axis reads the bias at the feature. -/
private theorem bias_apply (be : FVec Ideal S64 .f32) (b : Fin 4096) (n h : Fin 64) :
    broadcastInDim S4096x64x64 ![0, 1, 2] bcast_S1x1x64_S4096x64x64_0_1_2
        (broadcastInDim S1x1x64 ![2] bcast_S64_S1x1x64_2 be) (ix3 b n h) = be (ix1 h) := by
  refine (broadcastInDim_apply _ _ _ (ix3 b n h) (ix3 (0 : Fin 1) (0 : Fin 1) h) (fun a => ?_)).trans
    (broadcastInDim_apply _ _ be (ix3 (0 : Fin 1) (0 : Fin 1) h) (ix1 h) (fun a => ?_))
  · match a with
    | ⟨0, _⟩ => rfl
    | ⟨1, _⟩ => rfl
    | ⟨2, _⟩ => rfl
  · match a with
    | ⟨0, _⟩ => rfl

/-- The zero array reads the zero pattern everywhere. -/
private theorem zeros_apply (j : S4096x64x64.Idx) : Term.zeros (F := Ideal) j = Cert.Net.zeroF := by
  unfold Term.zeros
  rw [broadcastInDim_scalar_apply]
  rfl

/-- The embedding's contraction at batch item `b`, agent `n`, feature `h`. -/
private theorem embDot_apply (X : FVec Ideal S4096x64x128 .f32) (We : FVec Ideal S64x128 .f32)
    (b : Fin 4096) (n h : Fin 64) :
    Host.dotGeneral (F := Ideal) dot_S4096x64x128_S64x128_S4096x64x64_2_1_01_0_n_n none X We (ix3 b n h)
      = ∑ f : Fin 128, X (ix3 b n f) * We (ix2 h f) := by
  show FloatOps.dotGeneral _ none _ X We (ix3 b n h) = _
  rw [Ideal.dotGeneral_apply,
    ← Equiv.sum_comp (contrEquiv1 dot_S4096x64x128_S64x128_S4096x64x64_2_1_01_0_n_n 128 rfl rfl).symm]
  refine Finset.sum_congr rfl fun c _ => ?_
  rw [emb_lhs, emb_rhs]

/-- The embedding at batch item `b`, agent `n`, feature `h`. -/
theorem emb_apply (X : FVec Ideal S4096x64x128 .f32) (We : FVec Ideal S64x128 .f32) (be : FVec Ideal S64 .f32)
    (b : Fin 4096) (n h : Fin 64) :
    Term.emb (F := Ideal) X We be (ix3 b n h)
      = Cert.Net.embed (fun n f => X (ix3 b n f)) (fun h f => We (ix2 h f)) (fun h => be (ix1 h)) n h := by
  unfold Term.emb Cert.Net.embed
  rw [maximumf_apply, addf_apply, embDot_apply, bias_apply, zeros_apply]

/-- The left operand's index of a projection at contraction position `c`. -/
private theorem lin_lhs (b : Fin 4096) (n d c : Fin 64) :
    dot_S4096x64x64_S64x64_S4096x64x64_2_1_01_0_n_n.lhsIdx (ix3 b n d)
      ((contrEquiv1 dot_S4096x64x64_S64x64_S4096x64x64_2_1_01_0_n_n 64 rfl rfl).symm c) = ix3 b n c := by
  have c3 := contrEquiv1_symm_val dot_S4096x64x64_S64x64_S4096x64x64_2_1_01_0_n_n 64 rfl rfl c
  funext ax; apply Fin.ext
  match ax with
  | ⟨0, _⟩ => simp [DotDims.lhsIdx, dot_S4096x64x64_S64x64_S4096x64x64_2_1_01_0_n_n]; rfl
  | ⟨1, _⟩ => simp [DotDims.lhsIdx, dot_S4096x64x64_S64x64_S4096x64x64_2_1_01_0_n_n]; rfl
  | ⟨2, _⟩ => simp [DotDims.lhsIdx, dot_S4096x64x64_S64x64_S4096x64x64_2_1_01_0_n_n]; exact c3

/-- The right operand's index of a projection at contraction position `c`. -/
private theorem lin_rhs (b : Fin 4096) (n d c : Fin 64) :
    dot_S4096x64x64_S64x64_S4096x64x64_2_1_01_0_n_n.rhsIdx (ix3 b n d)
      ((contrEquiv1 dot_S4096x64x64_S64x64_S4096x64x64_2_1_01_0_n_n 64 rfl rfl).symm c) = ix2 d c := by
  have c3 := contrEquiv1_symm_val dot_S4096x64x64_S64x64_S4096x64x64_2_1_01_0_n_n 64 rfl rfl c
  funext ax; apply Fin.ext
  match ax with
  | ⟨0, _⟩ => simp [DotDims.rhsIdx, dot_S4096x64x64_S64x64_S4096x64x64_2_1_01_0_n_n]; rfl
  | ⟨1, _⟩ => simp [DotDims.rhsIdx, dot_S4096x64x64_S64x64_S4096x64x64_2_1_01_0_n_n]; exact c3

/-- A projection at batch item `b`, agent `n`, output feature `d`. -/
theorem lin_apply (e : FVec Ideal S4096x64x64 .f32) (W : FVec Ideal S64x64 .f32) (b : Fin 4096) (n d : Fin 64) :
    Term.lin (F := Ideal) e W (ix3 b n d) = ∑ h : Fin 64, e (ix3 b n h) * W (ix2 d h) := by
  show FloatOps.dotGeneral _ none _ e W (ix3 b n d) = _
  rw [Ideal.dotGeneral_apply,
    ← Equiv.sum_comp (contrEquiv1 dot_S4096x64x64_S64x64_S4096x64x64_2_1_01_0_n_n 64 rfl rfl).symm]
  refine Finset.sum_congr rfl fun c _ => ?_
  rw [lin_lhs, lin_rhs]

/-- The value features at batch item `b`, agent `n`, feature `d`. -/
theorem value_apply (e : FVec Ideal S4096x64x64 .f32) (Wv : FVec Ideal S64x64 .f32) (b : Fin 4096) (n d : Fin 64) :
    Term.value (F := Ideal) e Wv (ix3 b n d) = Ideal.tanh (∑ h : Fin 64, e (ix3 b n h) * Wv (ix2 d h)) := by
  show Ideal.tanh (Term.lin (F := Ideal) e Wv (ix3 b n d)) = _
  rw [lin_apply]

/-- The left operand's index of the logits' contraction at contraction position `c`. -/
private theorem logits_lhs (b : Fin 4096) (n : Fin 64) (d : Fin 16) (c : Fin 64) :
    dot_S4096x64x64_S16x64_S4096x64x16_2_1_01_0_n_n.lhsIdx (ix3 b n d)
      ((contrEquiv1 dot_S4096x64x64_S16x64_S4096x64x16_2_1_01_0_n_n 64 rfl rfl).symm c) = ix3 b n c := by
  have c3 := contrEquiv1_symm_val dot_S4096x64x64_S16x64_S4096x64x16_2_1_01_0_n_n 64 rfl rfl c
  funext ax; apply Fin.ext
  match ax with
  | ⟨0, _⟩ => simp [DotDims.lhsIdx, dot_S4096x64x64_S16x64_S4096x64x16_2_1_01_0_n_n]; rfl
  | ⟨1, _⟩ => simp [DotDims.lhsIdx, dot_S4096x64x64_S16x64_S4096x64x16_2_1_01_0_n_n]; rfl
  | ⟨2, _⟩ => simp [DotDims.lhsIdx, dot_S4096x64x64_S16x64_S4096x64x16_2_1_01_0_n_n]; exact c3

/-- The right operand's index of the logits' contraction at contraction position `c`. -/
private theorem logits_rhs (b : Fin 4096) (n : Fin 64) (d : Fin 16) (c : Fin 64) :
    dot_S4096x64x64_S16x64_S4096x64x16_2_1_01_0_n_n.rhsIdx (ix3 b n d)
      ((contrEquiv1 dot_S4096x64x64_S16x64_S4096x64x16_2_1_01_0_n_n 64 rfl rfl).symm c) = ix2 d c := by
  have c3 := contrEquiv1_symm_val dot_S4096x64x64_S16x64_S4096x64x16_2_1_01_0_n_n 64 rfl rfl c
  funext ax; apply Fin.ext
  match ax with
  | ⟨0, _⟩ => simp [DotDims.rhsIdx, dot_S4096x64x64_S16x64_S4096x64x16_2_1_01_0_n_n]; rfl
  | ⟨1, _⟩ => simp [DotDims.rhsIdx, dot_S4096x64x64_S16x64_S4096x64x16_2_1_01_0_n_n]; exact c3

/-- The logits at batch item `b`, agent `i`, action `a`. -/
theorem logits_apply (hd : FVec Ideal S4096x64x64 .f32) (Wf2 : FVec Ideal S16x64 .f32) (b : Fin 4096) (i : Fin 64) (a : Fin 16) :
    Term.logits (F := Ideal) hd Wf2 (ix3 b i a) = ∑ hh : Fin 64, hd (ix3 b i hh) * Wf2 (ix2 a hh) := by
  show FloatOps.dotGeneral _ none _ hd Wf2 (ix3 b i a) = _
  rw [Ideal.dotGeneral_apply,
    ← Equiv.sum_comp (contrEquiv1 dot_S4096x64x64_S16x64_S4096x64x16_2_1_01_0_n_n 64 rfl rfl).symm]
  refine Finset.sum_congr rfl fun c _ => ?_
  rw [logits_lhs, logits_rhs]

end Cert.ReferenceIdeal.AtIndex

end
-- ==== Proof.RefReadB.lean ====
/-
  The reference's two softmaxes read at an index, at the ideal instance: at batch item `b` and agent `i` each is the
  network's softmax of the row the array holds there — the row's maximum taken from `-∞` by the host's reduction, the
  shift, the exponential, the sum from zero, the quotient.
-/
import proofs.«134333_j32590211842700_1_alg».proof.Proof.RefTerm
import proofs.«134333_j32590211842700_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.AtIndex

open Cert.ReferenceIdeal Cert.ReferenceIdeal.Gen Idealize.ShloMosaic Idealize.ShloMosaic.ValueIdx

/-- Dropping the last axis of a [4096, 64, 64] array leaves a [4096, 64] one. -/
private theorem red64 : S4096x64x64.Reduces [2] S4096x64 := by decide

/-- The index over `(b, i)` with `j` inserted on the last axis is `(b, i, j)`. -/
private theorem lift64 (b : Fin 4096) (i : Fin 64) (j : Fin 64) : red64.lift (ix2 b i) j = ix3 b i j := by
  funext c
  match c with
  | ⟨0, _⟩ => exact Fin.ext rfl
  | ⟨1, _⟩ => exact Fin.ext rfl
  | ⟨2, _⟩ => exact Fin.ext rfl

/-- The row maximum at `(b, i)` is the network's maximum of the row held there: the fold of `max` from `-∞` over the
    last axis's coordinates, and once more against `-∞`. -/
private theorem rowMax64_apply (s : FVec Ideal S4096x64x64 .f32) (b : Fin 4096) (i : Fin 64) :
    Term.rowMax64 (F := Ideal) s (ix2 b i) = Cert.Net.rowMax (fun j' => s (ix3 b i j')) := by
  unfold Term.rowMax64 Cert.Net.rowMax
  rw [maximumf_apply, broadcastInDim_scalar_apply, constant_apply]
  refine congrArg (max Cert.Net.negInf) ?_
  refine (Host.reduce_eq_fold_single _ s _ reducesTo_S4096x64x64_S4096x64_d2 red64 h_S_ (ix2 b i)).trans ?_
  show (Finset.univ : Finset (Fin 64)).fold max Cert.Net.negInf (s ∘ red64.lift (ix2 b i)) = _
  exact congrArg (fun f => (Finset.univ : Finset (Fin 64)).fold max Cert.Net.negInf f)
    (funext fun j' => congrArg s (lift64 b i j'))

/-- A [4096, 64] array broadcast along a new unit axis and then along 64 positions reads, at `(b, i, j)`, its
    element at `(b, i)`. -/
private theorem bcast64 {α : Type} (x : S4096x64.Idx → α) (b : Fin 4096) (i : Fin 64) (j : Fin 64) :
    broadcastInDim S4096x64x64 ![0, 1, 2] bcast_S4096x64x1_S4096x64x64_0_1_2
      (broadcastInDim S4096x64x1 ![0, 1] bcast_S4096x64_S4096x64x1_0_1 x) (ix3 b i j) = x (ix2 b i) := by
  refine (broadcastInDim_apply _ _ _ (ix3 b i j) (ix3 b i (0 : Fin 1)) ?_).trans ?_
  · intro c
    match c with
    | ⟨0, _⟩ => rfl
    | ⟨1, _⟩ => rfl
    | ⟨2, _⟩ => rfl
  · refine broadcastInDim_apply _ _ _ _ (ix2 b i) ?_
    intro c
    match c with
    | ⟨0, _⟩ => rfl
    | ⟨1, _⟩ => rfl

/-- The shifted exponential at `(b, i, j)`: the exponential of the element less its row's maximum. -/
private theorem expShift64_apply (s : FVec Ideal S4096x64x64 .f32) (b : Fin 4096) (i : Fin 64) (j : Fin 64) :
    Term.expShift64 (F := Ideal) s (ix3 b i j)
      = Ideal.exp (s (ix3 b i j) - Cert.Net.rowMax (fun j' => s (ix3 b i j'))) := by
  unfold Term.expShift64
  show Ideal.exp (subf s _ (ix3 b i j)) = _
  rw [subf_apply, bcast64, rowMax64_apply]

/-- The sum from zero along the last axis at `(b, i)` is the sum of the row held there. -/
private theorem sum64_apply (x : FVec Ideal S4096x64x64 .f32) (b : Fin 4096) (i : Fin 64) :
    Host.reduceAdd (F := Ideal) x (constant S_ .f32 0x00000000#32) reducesTo_S4096x64x64_S4096x64_d2 h_S_ (ix2 b i)
      = ∑ k : Fin 64, x (ix3 b i k) := by
  rw [hostReduceAdd_apply, Ideal.hostReduceAdd_single _ red64, constant_apply, Ideal.ofBits_zero_f32, zero_add]
  exact Finset.sum_congr rfl fun k _ => congrArg x (lift64 b i k)

/-- The softmax along the last axis of a [4096, 64, 64] array at `(b, i, j)`. -/
theorem softmax64_apply (s : FVec Ideal S4096x64x64 .f32) (b : Fin 4096) (i j : Fin 64) :
    Term.softmax64 (F := Ideal) s (ix3 b i j) = Cert.Net.softmax (fun j' => s (ix3 b i j')) j := by
  unfold Term.softmax64 Cert.Net.softmax
  rw [hostDivf_apply, bcast64, sum64_apply, expShift64_apply]
  exact congrArg (Ideal.div _) (Finset.sum_congr rfl fun k _ => expShift64_apply s b i k)

/-- Dropping the last axis of a [4096, 64, 16] array leaves a [4096, 64] one. -/
private theorem red16 : S4096x64x16.Reduces [2] S4096x64 := by decide

/-- The index over `(b, i)` with `a` inserted on the last axis is `(b, i, a)`. -/
private theorem lift16 (b : Fin 4096) (i : Fin 64) (a : Fin 16) : red16.lift (ix2 b i) a = ix3 b i a := by
  funext c
  match c with
  | ⟨0, _⟩ => exact Fin.ext rfl
  | ⟨1, _⟩ => exact Fin.ext rfl
  | ⟨2, _⟩ => exact Fin.ext rfl

/-- The row maximum at `(b, i)` is the network's maximum of the row held there: the fold of `max` from `-∞` over the
    last axis's coordinates, and once more against `-∞`. -/
private theorem rowMax16_apply (s : FVec Ideal S4096x64x16 .f32) (b : Fin 4096) (i : Fin 64) :
    Term.rowMax16 (F := Ideal) s (ix2 b i) = Cert.Net.rowMax (fun a' => s (ix3 b i a')) := by
  unfold Term.rowMax16 Cert.Net.rowMax
  rw [maximumf_apply, broadcastInDim_scalar_apply, constant_apply]
  refine congrArg (max Cert.Net.negInf) ?_
  refine (Host.reduce_eq_fold_single _ s _ reducesTo_S4096x64x16_S4096x64_d2 red16 h_S_ (ix2 b i)).trans ?_
  show (Finset.univ : Finset (Fin 16)).fold max Cert.Net.negInf (s ∘ red16.lift (ix2 b i)) = _
  exact congrArg (fun f => (Finset.univ : Finset (Fin 16)).fold max Cert.Net.negInf f)
    (funext fun a' => congrArg s (lift16 b i a'))

/-- A [4096, 64] array broadcast along a new unit axis and then along 16 positions reads, at `(b, i, a)`, its
    element at `(b, i)`. -/
private theorem bcast16 {α : Type} (x : S4096x64.Idx → α) (b : Fin 4096) (i : Fin 64) (a : Fin 16) :
    broadcastInDim S4096x64x16 ![0, 1, 2] bcast_S4096x64x1_S4096x64x16_0_1_2
      (broadcastInDim S4096x64x1 ![0, 1] bcast_S4096x64_S4096x64x1_0_1 x) (ix3 b i a) = x (ix2 b i) := by
  refine (broadcastInDim_apply _ _ _ (ix3 b i a) (ix3 b i (0 : Fin 1)) ?_).trans ?_
  · intro c
    match c with
    | ⟨0, _⟩ => rfl
    | ⟨1, _⟩ => rfl
    | ⟨2, _⟩ => rfl
  · refine broadcastInDim_apply _ _ _ _ (ix2 b i) ?_
    intro c
    match c with
    | ⟨0, _⟩ => rfl
    | ⟨1, _⟩ => rfl

/-- The shifted exponential at `(b, i, a)`: the exponential of the element less its row's maximum. -/
private theorem expShift16_apply (s : FVec Ideal S4096x64x16 .f32) (b : Fin 4096) (i : Fin 64) (a : Fin 16) :
    Term.expShift16 (F := Ideal) s (ix3 b i a)
      = Ideal.exp (s (ix3 b i a) - Cert.Net.rowMax (fun a' => s (ix3 b i a'))) := by
  unfold Term.expShift16
  show Ideal.exp (subf s _ (ix3 b i a)) = _
  rw [subf_apply, bcast16, rowMax16_apply]

/-- The sum from zero along the last axis at `(b, i)` is the sum of the row held there. -/
private theorem sum16_apply (x : FVec Ideal S4096x64x16 .f32) (b : Fin 4096) (i : Fin 64) :
    Host.reduceAdd (F := Ideal) x (constant S_ .f32 0x00000000#32) reducesTo_S4096x64x16_S4096x64_d2 h_S_ (ix2 b i)
      = ∑ k : Fin 16, x (ix3 b i k) := by
  rw [hostReduceAdd_apply, Ideal.hostReduceAdd_single _ red16, constant_apply, Ideal.ofBits_zero_f32, zero_add]
  exact Finset.sum_congr rfl fun k _ => congrArg x (lift16 b i k)

/-- The softmax along the last axis of a [4096, 64, 16] array at `(b, i, a)`. -/
theorem softmax16_apply (s : FVec Ideal S4096x64x16 .f32) (b : Fin 4096) (i : Fin 64) (a : Fin 16) :
    Term.softmax16 (F := Ideal) s (ix3 b i a) = Cert.Net.softmax (fun a' => s (ix3 b i a')) a := by
  unfold Term.softmax16 Cert.Net.softmax
  rw [hostDivf_apply, bcast16, sum16_apply, expShift16_apply]
  exact congrArg (Ideal.div _) (Finset.sum_congr rfl fun k _ => expShift16_apply s b i k)

end Cert.ReferenceIdeal.AtIndex

end
-- ==== Proof.RefReadC.lean ====
/-
  The reference's batched contractions and its leaky rectifier read at an index, at the ideal instance: the scores
  contract keys against queries of the same batch item and, divided by the square root of 64, are scaled by an eighth;
  the node features contract weights against values over the agents and divide by 64; the leaky rectifier is elementwise.
-/
import proofs.«134333_j32590211842700_1_alg».proof.Proof.RefTerm
import proofs.«134333_j32590211842700_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Idealize.ShloMosaic.Lib.StackMember

noncomputable section

namespace Cert.ReferenceIdeal.AtIndex

open Cert.ReferenceIdeal Cert.ReferenceIdeal.Gen Idealize.ShloMosaic Idealize.ShloMosaic.ValueIdx

/-- The record of the scores' contraction: batch axis 0 on both sides, the last axes contracted. -/
private abbrev dS : DotDims S4096x64x64 S4096x64x64 S4096x64x64 :=
  dot_S4096x64x64_S4096x64x64_S4096x64x64_2_2_1_1_0_0

/-- The left operand of the scores' contraction is read at batch item, key agent, contracted coordinate. -/
private theorem dS_lhs (b : Fin 4096) (i j c : Fin 64) :
    dS.lhsIdx (ix3 b i j) ((contrEquiv1 dS 64 rfl rfl).symm c) = ix3 b i c := by
  funext ax; apply Fin.ext
  match ax with
  | ⟨0, _⟩ => rfl
  | ⟨1, _⟩ => rfl
  | ⟨2, _⟩ => rfl

/-- The right operand of the scores' contraction is read at batch item, query agent, contracted coordinate. -/
private theorem dS_rhs (b : Fin 4096) (i j c : Fin 64) :
    dS.rhsIdx (ix3 b i j) ((contrEquiv1 dS 64 rfl rfl).symm c) = ix3 b j c := by
  funext ax; apply Fin.ext
  match ax with
  | ⟨0, _⟩ => rfl
  | ⟨1, _⟩ => rfl
  | ⟨2, _⟩ => rfl

/-- The scores' contraction at an index: keys against queries of the same batch item, over the features. -/
private theorem dS_apply (k q : FVec Ideal S4096x64x64 .f32) (b : Fin 4096) (i j : Fin 64) :
    Host.dotGeneral dS none k q (ix3 b i j) = ∑ d : Fin 64, k (ix3 b i d) * q (ix3 b j d) := by
  show FloatOps.dotGeneral dS none _ k q (ix3 b i j) = _
  rw [Ideal.dotGeneral_apply, ← Equiv.sum_comp (contrEquiv1 dS 64 rfl rfl).symm]
  refine Finset.sum_congr rfl fun c _ => ?_
  rw [dS_lhs, dS_rhs]

/-- The scores at batch item `b`, key agent `i`, query agent `j`. -/
theorem scores_apply (k q : FVec Ideal S4096x64x64 .f32) (b : Fin 4096) (i j : Fin 64) :
    Term.scores (F := Ideal) k q (ix3 b i j) = (∑ d : Fin 64, k (ix3 b i d) * q (ix3 b j d)) * Cert.Net.eighth := by
  unfold Term.scores
  rw [hostDivf_apply, broadcastInDim_scalar_apply]
  refine Eq.trans ?_ (Cert.Net.div_sqrt_sixtyFour _)
  refine congrArg₂ Ideal.div ?_ rfl
  exact dS_apply k q b i j

/-- The node features at batch item `b`, agent `i`, feature `d`. -/
theorem node_apply (w v : FVec Ideal S4096x64x64 .f32) (b : Fin 4096) (i d : Fin 64) :
    Term.node (F := Ideal) w v (ix3 b i d)
      = Ideal.div (∑ j : Fin 64, w (ix3 b i j) * v (ix3 b j d)) Cert.Net.sixtyFour := by
  unfold Term.node
  rw [hostDivf_apply, broadcastInDim_scalar_apply]
  refine congrArg₂ Ideal.div ?_ rfl
  exact StackMember.dotGeneral_stack_apply _ none w v b i d

/-- The leaky rectifier at any index. -/
theorem leaky_apply (y : FVec Ideal S4096x64x64 .f32) (idx : S4096x64x64.Idx) :
    Term.leaky (F := Ideal) y idx = Cert.Net.leaky (y idx) := by
  rfl

end Cert.ReferenceIdeal.AtIndex

end
-- ==== Proof.RefAt.lean ====
/-
  The reference's two results are the network's whole arrays: its weights term at `(b, i, j)` is the network's attention
  weight of batch item `b`, its policy term at `(b, i, a)` the network's policy, stage by stage.
-/
import proofs.«134333_j32590211842700_1_alg».proof.Proof.RefReadA
import proofs.«134333_j32590211842700_1_alg».proof.Proof.RefReadB
import proofs.«134333_j32590211842700_1_alg».proof.Proof.RefReadC
import proofs.«134333_j32590211842700_1_alg».proof.Proof.Arrays

noncomputable section

namespace Cert.ReferenceIdeal.AtIndex

open Cert.ReferenceIdeal Cert.ReferenceIdeal.Gen Idealize.ShloMosaic Idealize.ShloMosaic.ValueIdx

/-- The reference's embedding, one batch item at a time, is the network's. -/
theorem embItem_eq (X : FVec Ideal S4096x64x128 .f32) (We : FVec Ideal S64x128 .f32) (be : FVec Ideal S64 .f32) (b : Fin 4096) :
    (fun n h => Term.emb (F := Ideal) X We be (ix3 b n h))
      = Cert.Net.embed (fun n f => X (ix3 b n f)) (fun h f => We (ix2 h f)) (fun h => be (ix1 h)) :=
  funext fun n => funext fun h => emb_apply X We be b n h

/-- The reference's weights at `(b, i, j)`. -/
theorem weight_apply (X : FVec Ideal S4096x64x128 .f32) (We : FVec Ideal S64x128 .f32) (be : FVec Ideal S64 .f32)
    (Wk Wq : FVec Ideal S64x64 .f32) (b : Fin 4096) (i j : Fin 64) :
    Term.weight (F := Ideal) X We be Wk Wq (ix3 b i j)
      = Cert.Net.weight (fun n h => Term.emb (F := Ideal) X We be (ix3 b n h)) (fun d h => Wk (ix2 d h)) (fun d h => Wq (ix2 d h)) i j := by
  unfold Term.weight
  rw [softmax64_apply]
  unfold Cert.Net.weight
  congr 1
  funext j'
  rw [scores_apply]
  unfold Cert.Net.score Cert.Net.proj
  simp only [lin_apply]

/-- The reference's weights are the network's weights array. -/
theorem weight_eq (X : FVec Ideal S4096x64x128 .f32) (We : FVec Ideal S64x128 .f32) (be : FVec Ideal S64 .f32)
    (Wk Wq : FVec Ideal S64x64 .f32) :
    Term.weight (F := Ideal) X We be Wk Wq = Cert.Net.weightArr X We be Wk Wq := by
  funext idx
  obtain ⟨b, i, j, rfl⟩ : ∃ (b : Fin 4096) (i j : Fin 64), idx = ix3 b i j := ⟨idx 0, idx 1, idx 2, eq_ix3 idx⟩
  rw [weight_apply, embItem_eq, Cert.Net.weightArr_apply]
  rfl

/-- The reference's policy at `(b, i, a)`. -/
theorem policy_apply (X : FVec Ideal S4096x64x128 .f32) (We : FVec Ideal S64x128 .f32) (be : FVec Ideal S64 .f32)
    (Wk Wq Wv Wf1 : FVec Ideal S64x64 .f32) (Wf2 : FVec Ideal S16x64 .f32) (b : Fin 4096) (i : Fin 64) (a : Fin 16) :
    Term.policy (F := Ideal) X We be Wk Wq Wv Wf1 Wf2 (ix3 b i a)
      = Cert.Net.policy
          (Cert.Net.hidden
            (Cert.Net.node
              (Cert.Net.weight (fun n h => Term.emb (F := Ideal) X We be (ix3 b n h)) (fun d h => Wk (ix2 d h)) (fun d h => Wq (ix2 d h)))
              (Cert.Net.value (fun n h => Term.emb (F := Ideal) X We be (ix3 b n h)) (fun d h => Wv (ix2 d h))))
            (fun hh d => Wf1 (ix2 hh d)))
          (fun a hh => Wf2 (ix2 a hh)) i a := by
  unfold Term.policy
  rw [softmax16_apply]
  unfold Cert.Net.policy
  congr 1
  funext a'
  rw [logits_apply]
  unfold Cert.Net.proj
  refine Finset.sum_congr rfl fun hh _ => ?_
  congr 1
  unfold Term.hidden
  rw [leaky_apply, lin_apply]
  unfold Cert.Net.hidden Cert.Net.proj
  congr 1
  refine Finset.sum_congr rfl fun d _ => ?_
  congr 1
  rw [node_apply]
  unfold Cert.Net.node
  congr 1
  refine Finset.sum_congr rfl fun j _ => ?_
  rw [weight_apply, value_apply]
  unfold Cert.Net.value Cert.Net.proj
  rfl

/-- The reference's policy is the network's policy array. -/
theorem policy_eq (X : FVec Ideal S4096x64x128 .f32) (We : FVec Ideal S64x128 .f32) (be : FVec Ideal S64 .f32)
    (Wk Wq Wv Wf1 : FVec Ideal S64x64 .f32) (Wf2 : FVec Ideal S16x64 .f32) :
    Term.policy (F := Ideal) X We be Wk Wq Wv Wf1 Wf2 = Cert.Net.policyArr X We be Wk Wq Wv Wf1 Wf2 := by
  funext idx
  obtain ⟨b, i, a, rfl⟩ : ∃ (b : Fin 4096) (i : Fin 64) (a : Fin 16), idx = ix3 b i a := ⟨idx 0, idx 1, idx 2, eq_ix3 idx⟩
  rw [policy_apply, embItem_eq, Cert.Net.policyArr_apply]
  rfl

end Cert.ReferenceIdeal.AtIndex

end
-- ==== Proof.RefRun.lean ====
/-
  The reference's run: its @main is a straight line of host operations once its three private functions (the rectifier,
  the leaky rectifier and the select it calls) are unfolded at their calls, so every weakly fair execution terminates
  with the two results at the stages' composed terms of the arguments, and the arguments unchanged.
-/
import proofs.«134333_j32590211842700_1_alg».proof.Proof.RefTerm
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's fifty-seven operations in order, the calls unfolded: the embedding's four (the contraction, the bias's two
    broadcasts, the sum), the rectifier's three (the zero, its broadcast, the maximum), the keys, the queries, their
    scores and the scale (the contraction, sixty-four, its square root, the broadcast, the quotient), the first softmax's
    fourteen, the values' two, the node features' four (the contraction, sixty-four, its broadcast, the quotient), the
    hidden layer's projection, the leaky rectifier's seven (the zero, its broadcast, the comparison, the slope, its
    broadcast, the product, and the select it calls), the logits, and the second softmax's fourteen. -/
private abbrev ops : List (HloOp τ sig (Elt F)) :=
  [ binary main_arg0 main_arg1 main_v0 ((fun l r => Host.dotGeneral dot_S4096x64x128_S64x128_S4096x64x64_2_1_01_0_n_n none l r) : (⟨S4096x64x128, .f32⟩ : BufTy).Contents (Elt F) → (⟨S64x128, .f32⟩ : BufTy).Contents (Elt F) → (⟨S4096x64x64, .f32⟩ : BufTy).Contents (Elt F)),
    unary main_arg2 main_v1 (broadcastInDim S1x1x64 ![2] bcast_S64_S1x1x64_2 : (⟨S64, .f32⟩ : BufTy).Contents (Elt F) → (⟨S1x1x64, .f32⟩ : BufTy).Contents (Elt F)),
    unary main_v1 main_v2 (broadcastInDim S4096x64x64 ![0, 1, 2] bcast_S1x1x64_S4096x64x64_0_1_2 : (⟨S1x1x64, .f32⟩ : BufTy).Contents (Elt F) → (⟨S4096x64x64, .f32⟩ : BufTy).Contents (Elt F)),
    binary main_v0 main_v2 main_v3 (addf : (⟨S4096x64x64, .f32⟩ : BufTy).Contents (Elt F) → (⟨S4096x64x64, .f32⟩ : BufTy).Contents (Elt F) → (⟨S4096x64x64, .f32⟩ : BufTy).Contents (Elt F)),
    TRef.nullary main_call0.cst (constant S_ .f32 0x00000000#32),
    TRef.unary main_call0.cst main_call0.v0 (broadcastInDim S4096x64x64 ![] bcast_S_S4096x64x64),
    TRef.binary (.of main_v3 : TRef sig ⟨S4096x64x64, .f32⟩) main_call0.v0 main_call0.v1 maximumf,
    binary main_v4 main_arg3 main_v5 ((fun l r => Host.dotGeneral dot_S4096x64x64_S64x64_S4096x64x64_2_1_01_0_n_n none l r) : (⟨S4096x64x64, .f32⟩ : BufTy).Contents (Elt F) → (⟨S64x64, .f32⟩ : BufTy).Contents (Elt F) → (⟨S4096x64x64, .f32⟩ : BufTy).Contents (Elt F)),
    binary main_v4 main_arg4 main_v6 ((fun l r => Host.dotGeneral dot_S4096x64x64_S64x64_S4096x64x64_2_1_01_0_n_n none l r) : (⟨S4096x64x64, .f32⟩ : BufTy).Contents (Elt F) → (⟨S64x64, .f32⟩ : BufTy).Contents (Elt F) → (⟨S4096x64x64, .f32⟩ : BufTy).Contents (Elt F)),
    binary main_v5 main_v6 main_v7 ((fun l r => Host.dotGeneral dot_S4096x64x64_S4096x64x64_S4096x64x64_2_2_1_1_0_0 none l r) : (⟨S4096x64x64, .f32⟩ : BufTy).Contents (Elt F) → (⟨S4096x64x64, .f32⟩ : BufTy).Contents (Elt F) → (⟨S4096x64x64, .f32⟩ : BufTy).Contents (Elt F)),
    nullary main_cst (constant S_ .f32 0x42800000#32),
    unary main_cst main_v8 (Host.sqrt : (⟨S_, .f32⟩ : BufTy).Contents (Elt F) → (⟨S_, .f32⟩ : BufTy).Contents (Elt F)),
    unary main_v8 main_v9 (broadcastInDim S4096x64x64 ![] bcast_S_S4096x64x64 : (⟨S_, .f32⟩ : BufTy).Contents (Elt F) → (⟨S4096x64x64, .f32⟩ : BufTy).Contents (Elt F)),
    binary main_v7 main_v9 main_v10 (Host.divf : (⟨S4096x64x64, .f32⟩ : BufTy).Contents (Elt F) → (⟨S4096x64x64, .f32⟩ : BufTy).Contents (Elt F) → (⟨S4096x64x64, .f32⟩ : BufTy).Contents (Elt F)),
    nullary main_cst_0 (constant S_ .f32 0xFF800000#32),
    binary main_v10 main_cst_0 main_v11 ((fun x v => Host.reduce FloatOps.maximumf x v reducesTo_S4096x64x64_S4096x64_d2 h_S_) : (⟨S4096x64x64, .f32⟩ : BufTy).Contents (Elt F) → (⟨S_, .f32⟩ : BufTy).Contents (Elt F) → (⟨S4096x64, .f32⟩ : BufTy).Contents (Elt F)),
    nullary main_cst_1 (constant S_ .f32 0xFF800000#32),
    unary main_cst_1 main_v12 (broadcastInDim S4096x64 ![] bcast_S_S4096x64 : (⟨S_, .f32⟩ : BufTy).Contents (Elt F) → (⟨S4096x64, .f32⟩ : BufTy).Contents (Elt F)),
    binary main_v12 main_v11 main_v13 (maximumf : (⟨S4096x64, .f32⟩ : BufTy).Contents (Elt F) → (⟨S4096x64, .f32⟩ : BufTy).Contents (Elt F) → (⟨S4096x64, .f32⟩ : BufTy).Contents (Elt F)),
    unary main_v13 main_v14 (broadcastInDim S4096x64x1 ![0, 1] bcast_S4096x64_S4096x64x1_0_1 : (⟨S4096x64, .f32⟩ : BufTy).Contents (Elt F) → (⟨S4096x64x1, .f32⟩ : BufTy).Contents (Elt F)),
    unary main_v14 main_v15 (broadcastInDim S4096x64x64 ![0, 1, 2] bcast_S4096x64x1_S4096x64x64_0_1_2 : (⟨S4096x64x1, .f32⟩ : BufTy).Contents (Elt F) → (⟨S4096x64x64, .f32⟩ : BufTy).Contents (Elt F)),
    binary main_v10 main_v15 main_v16 (subf : (⟨S4096x64x64, .f32⟩ : BufTy).Contents (Elt F) → (⟨S4096x64x64, .f32⟩ : BufTy).Contents (Elt F) → (⟨S4096x64x64, .f32⟩ : BufTy).Contents (Elt F)),
    unary main_v16 main_v17 (Host.exp : (⟨S4096x64x64, .f32⟩ : BufTy).Contents (Elt F) → (⟨S4096x64x64, .f32⟩ : BufTy).Contents (Elt F)),
    nullary main_cst_2 (constant S_ .f32 0x00000000#32),
    binary main_v17 main_cst_2 main_v18 ((fun x v => Host.reduceAdd x v reducesTo_S4096x64x64_S4096x64_d2 h_S_) : (⟨S4096x64x64, .f32⟩ : BufTy).Contents (Elt F) → (⟨S_, .f32⟩ : BufTy).Contents (Elt F) → (⟨S4096x64, .f32⟩ : BufTy).Contents (Elt F)),
    unary main_v18 main_v19 (broadcastInDim S4096x64x1 ![0, 1] bcast_S4096x64_S4096x64x1_0_1 : (⟨S4096x64, .f32⟩ : BufTy).Contents (Elt F) → (⟨S4096x64x1, .f32⟩ : BufTy).Contents (Elt F)),
    unary main_v19 main_v20 (broadcastInDim S4096x64x64 ![0, 1, 2] bcast_S4096x64x1_S4096x64x64_0_1_2 : (⟨S4096x64x1, .f32⟩ : BufTy).Contents (Elt F) → (⟨S4096x64x64, .f32⟩ : BufTy).Contents (Elt F)),
    binary main_v17 main_v20 main_v21 (Host.divf : (⟨S4096x64x64, .f32⟩ : BufTy).Contents (Elt F) → (⟨S4096x64x64, .f32⟩ : BufTy).Contents (Elt F) → (⟨S4096x64x64, .f32⟩ : BufTy).Contents (Elt F)),
    binary main_v4 main_arg5 main_v22 ((fun l r => Host.dotGeneral dot_S4096x64x64_S64x64_S4096x64x64_2_1_01_0_n_n none l r) : (⟨S4096x64x64, .f32⟩ : BufTy).Contents (Elt F) → (⟨S64x64, .f32⟩ : BufTy).Contents (Elt F) → (⟨S4096x64x64, .f32⟩ : BufTy).Contents (Elt F)),
    unary main_v22 main_v23 (Host.tanh : (⟨S4096x64x64, .f32⟩ : BufTy).Contents (Elt F) → (⟨S4096x64x64, .f32⟩ : BufTy).Contents (Elt F)),
    binary main_v21 main_v23 main_v24 ((fun l r => Host.dotGeneral dot_S4096x64x64_S4096x64x64_S4096x64x64_2_1_1_2_0_0 none l r) : (⟨S4096x64x64, .f32⟩ : BufTy).Contents (Elt F) → (⟨S4096x64x64, .f32⟩ : BufTy).Contents (Elt F) → (⟨S4096x64x64, .f32⟩ : BufTy).Contents (Elt F)),
    nullary main_cst_3 (constant S_ .f32 0x42800000#32),
    unary main_cst_3 main_v25 (broadcastInDim S4096x64x64 ![] bcast_S_S4096x64x64 : (⟨S_, .f32⟩ : BufTy).Contents (Elt F) → (⟨S4096x64x64, .f32⟩ : BufTy).Contents (Elt F)),
    binary main_v24 main_v25 main_v26 (Host.divf : (⟨S4096x64x64, .f32⟩ : BufTy).Contents (Elt F) → (⟨S4096x64x64, .f32⟩ : BufTy).Contents (Elt F) → (⟨S4096x64x64, .f32⟩ : BufTy).Contents (Elt F)),
    binary main_v26 main_arg6 main_v27 ((fun l r => Host.dotGeneral dot_S4096x64x64_S64x64_S4096x64x64_2_1_01_0_n_n none l r) : (⟨S4096x64x64, .f32⟩ : BufTy).Contents (Elt F) → (⟨S64x64, .f32⟩ : BufTy).Contents (Elt F) → (⟨S4096x64x64, .f32⟩ : BufTy).Contents (Elt F)),
    TRef.nullary main_call1.cst (constant S_ .f32 0x00000000#32),
    TRef.unary main_call1.cst main_call1.v0 (broadcastInDim S4096x64x64 ![] bcast_S_S4096x64x64),
    TRef.binary (.of main_v27 : TRef sig ⟨S4096x64x64, .f32⟩) main_call1.v0 main_call1.v1 (cmpf .oge),
    TRef.nullary main_call1.cst_0 (constant S_ .f32 0x3C23D70A#32),
    TRef.unary main_call1.cst_0 main_call1.v2 (broadcastInDim S4096x64x64 ![] bcast_S_S4096x64x64),
    TRef.binary main_call1.v2 (.of main_v27 : TRef sig ⟨S4096x64x64, .f32⟩) main_call1.v3 mulf,
    TRef.ternary main_call1.v1 (.of main_v27 : TRef sig ⟨S4096x64x64, .f32⟩) main_call1.v3 main_call1.call0.v0 select,
    binary main_v28 main_arg7 main_v29 ((fun l r => Host.dotGeneral dot_S4096x64x64_S16x64_S4096x64x16_2_1_01_0_n_n none l r) : (⟨S4096x64x64, .f32⟩ : BufTy).Contents (Elt F) → (⟨S16x64, .f32⟩ : BufTy).Contents (Elt F) → (⟨S4096x64x16, .f32⟩ : BufTy).Contents (Elt F)),
    nullary main_cst_4 (constant S_ .f32 0xFF800000#32),
    binary main_v29 main_cst_4 main_v30 ((fun x v => Host.reduce FloatOps.maximumf x v reducesTo_S4096x64x16_S4096x64_d2 h_S_) : (⟨S4096x64x16, .f32⟩ : BufTy).Contents (Elt F) → (⟨S_, .f32⟩ : BufTy).Contents (Elt F) → (⟨S4096x64, .f32⟩ : BufTy).Contents (Elt F)),
    nullary main_cst_5 (constant S_ .f32 0xFF800000#32),
    unary main_cst_5 main_v31 (broadcastInDim S4096x64 ![] bcast_S_S4096x64 : (⟨S_, .f32⟩ : BufTy).Contents (Elt F) → (⟨S4096x64, .f32⟩ : BufTy).Contents (Elt F)),
    binary main_v31 main_v30 main_v32 (maximumf : (⟨S4096x64, .f32⟩ : BufTy).Contents (Elt F) → (⟨S4096x64, .f32⟩ : BufTy).Contents (Elt F) → (⟨S4096x64, .f32⟩ : BufTy).Contents (Elt F)),
    unary main_v32 main_v33 (broadcastInDim S4096x64x1 ![0, 1] bcast_S4096x64_S4096x64x1_0_1 : (⟨S4096x64, .f32⟩ : BufTy).Contents (Elt F) → (⟨S4096x64x1, .f32⟩ : BufTy).Contents (Elt F)),
    unary main_v33 main_v34 (broadcastInDim S4096x64x16 ![0, 1, 2] bcast_S4096x64x1_S4096x64x16_0_1_2 : (⟨S4096x64x1, .f32⟩ : BufTy).Contents (Elt F) → (⟨S4096x64x16, .f32⟩ : BufTy).Contents (Elt F)),
    binary main_v29 main_v34 main_v35 (subf : (⟨S4096x64x16, .f32⟩ : BufTy).Contents (Elt F) → (⟨S4096x64x16, .f32⟩ : BufTy).Contents (Elt F) → (⟨S4096x64x16, .f32⟩ : BufTy).Contents (Elt F)),
    unary main_v35 main_v36 (Host.exp : (⟨S4096x64x16, .f32⟩ : BufTy).Contents (Elt F) → (⟨S4096x64x16, .f32⟩ : BufTy).Contents (Elt F)),
    nullary main_cst_6 (constant S_ .f32 0x00000000#32),
    binary main_v36 main_cst_6 main_v37 ((fun x v => Host.reduceAdd x v reducesTo_S4096x64x16_S4096x64_d2 h_S_) : (⟨S4096x64x16, .f32⟩ : BufTy).Contents (Elt F) → (⟨S_, .f32⟩ : BufTy).Contents (Elt F) → (⟨S4096x64, .f32⟩ : BufTy).Contents (Elt F)),
    unary main_v37 main_v38 (broadcastInDim S4096x64x1 ![0, 1] bcast_S4096x64_S4096x64x1_0_1 : (⟨S4096x64, .f32⟩ : BufTy).Contents (Elt F) → (⟨S4096x64x1, .f32⟩ : BufTy).Contents (Elt F)),
    unary main_v38 main_v39 (broadcastInDim S4096x64x16 ![0, 1, 2] bcast_S4096x64x1_S4096x64x16_0_1_2 : (⟨S4096x64x1, .f32⟩ : BufTy).Contents (Elt F) → (⟨S4096x64x16, .f32⟩ : BufTy).Contents (Elt F)),
    binary main_v36 main_v39 main_v40 (Host.divf : (⟨S4096x64x16, .f32⟩ : BufTy).Contents (Elt F) → (⟨S4096x64x16, .f32⟩ : BufTy).Contents (Elt F) → (⟨S4096x64x16, .f32⟩ : BufTy).Contents (Elt F)) ]

-- fifty-seven binds re-associated, one level of recursion per statement
set_option maxRecDepth 2048 in
/-- @main is that straight line: the three functions' definitions unfolded at their calls and the records at their
    fields, both sides are one chain of steps once sequencing is reassociated. -/
private theorem main_eq (c : Dev nD) : main (F := F) c = seq ops := by
  simp only [main, fn_relu.body, fn_leaky_relu.body, fn_where.body, seq, bind_assoc, pure_bind]

private theorem scopedRefs_eq : (Finset.univ.filter fun b : Ref sig .tc => b.isScoped) = ∅ := by decide
private theorem scopedSems_eq : (Finset.univ.filter fun sm : SemLoc sig => sm.isScoped .tc) = ∅ := by decide

private theorem ops_sub : (ops : List (HloOp τ sig (Elt F))).Forall fun op => op.bufs ⊆ tcRefs τ sig :=
  ⟨binary_bufs_sub .., unary_bufs_sub .., unary_bufs_sub .., binary_bufs_sub ..,
    nullary_bufs_sub .., unary_bufs_sub .., binary_bufs_sub ..,
    binary_bufs_sub .., binary_bufs_sub .., binary_bufs_sub .., nullary_bufs_sub .., unary_bufs_sub .., unary_bufs_sub ..,
    binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub ..,
    binary_bufs_sub .., unary_bufs_sub .., binary_bufs_sub .., nullary_bufs_sub .., unary_bufs_sub .., binary_bufs_sub ..,
    binary_bufs_sub ..,
    nullary_bufs_sub .., unary_bufs_sub .., binary_bufs_sub .., nullary_bufs_sub .., unary_bufs_sub .., binary_bufs_sub ..,
    ternary_bufs_sub ..,
    binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub ..⟩

/-- The fold at the second result's buffer is the attention weights' term of the arguments. -/
private theorem weight_eq (V : Valuation τ sig (Elt F)) :
    after ops V (main_v21 : DevRef τ sig)
      = Term.weight (V (main_arg0 : DevRef τ sig)) (V (main_arg1 : DevRef τ sig)) (V (main_arg2 : DevRef τ sig))
          (V (main_arg3 : DevRef τ sig)) (V (main_arg4 : DevRef τ sig)) := by
  after_results_simp
  rfl

/-- The fold at the first result's buffer is the policy's term of the arguments. -/
private theorem policy_eq (V : Valuation τ sig (Elt F)) :
    after ops V (main_v40 : DevRef τ sig)
      = Term.policy (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  rfl

/-- No operation writes an argument's buffer. -/
private theorem arg0_eq (V : Valuation τ sig (Elt F)) : after ops V (main_arg0 : DevRef τ sig) = V (main_arg0 : DevRef τ sig) := by
  after_results_simp
private theorem arg1_eq (V : Valuation τ sig (Elt F)) : after ops V (main_arg1 : DevRef τ sig) = V (main_arg1 : DevRef τ sig) := by
  after_results_simp
private theorem arg2_eq (V : Valuation τ sig (Elt F)) : after ops V (main_arg2 : DevRef τ sig) = V (main_arg2 : DevRef τ sig) := by
  after_results_simp
private theorem arg3_eq (V : Valuation τ sig (Elt F)) : after ops V (main_arg3 : DevRef τ sig) = V (main_arg3 : DevRef τ sig) := by
  after_results_simp
private theorem arg4_eq (V : Valuation τ sig (Elt F)) : after ops V (main_arg4 : DevRef τ sig) = V (main_arg4 : DevRef τ sig) := by
  after_results_simp
private theorem arg5_eq (V : Valuation τ sig (Elt F)) : after ops V (main_arg5 : DevRef τ sig) = V (main_arg5 : DevRef τ sig) := by
  after_results_simp
private theorem arg6_eq (V : Valuation τ sig (Elt F)) : after ops V (main_arg6 : DevRef τ sig) = V (main_arg6 : DevRef τ sig) := by
  after_results_simp
private theorem arg7_eq (V : Valuation τ sig (Elt F)) : after ops V (main_arg7 : DevRef τ sig) = V (main_arg7 : DevRef τ sig) := by
  after_results_simp

/-- On every device, for any float values, from any memory with zero counters: every weakly fair execution of @main
    terminates with the policy and the weights at their terms of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40)
          = Term.policy (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_v21)
          = Term.weight (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v40).trans (policy_eq _), (h c main_v21).trans (weight_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_seq scopedRefs_eq scopedSems_eq defs main (fun _ => ops) main_eq (fun _ => ops_sub) m ρ)

end Cert.ReferenceIdeal.HostRun

end
-- ==== Proof.lean ====
/-
  The certificate of a scaled dot-product policy network: for each of 4096 batch items, 64 agents' observations are
  embedded (a rectified affine map), projected to keys, queries and values; each agent's attention weights are the
  softmax of its keys' scores against every agent's queries, scaled by 1/√64; the values are averaged under those weights,
  passed through a leaky rectifier layer, and a softmax over 16 actions gives the policy. The kernel computes both
  results block by block — 128 batch items a grid point, flattened to 8192 rows for the matrix products — and the
  reference computes them over whole arrays. Over the extended reals the two agree entry by entry: every contraction
  is the same finite sum (re-indexed, never re-associated), the softmaxes are the same expression of a row, a change of
  float format is the identity, and the one place the texts differ — the kernel multiplies the scores by an eighth where
  the reference divides by the square root of sixty-four — is an identity on every extended real. No law used needs
  finiteness, so the precondition is never opened.

  The frames of the two kernel programs are the generated ones; the reference's frame is its run with the results
  dropped. The idealization rewrote nothing, so `preserves` is trivial.
-/
import proofs.«134333_j32590211842700_1_alg».proof.Defs
import proofs.«134333_j32590211842700_1_alg».proof.Proof.Gen.Kernel
import proofs.«134333_j32590211842700_1_alg».proof.Proof.Gen.Kernel.Skeleton
import proofs.«134333_j32590211842700_1_alg».proof.Proof.Gen.Kernel.Launch
import proofs.«134333_j32590211842700_1_alg».proof.Proof.Gen.Kernel.Points
import proofs.«134333_j32590211842700_1_alg».proof.Proof.Gen.Kernel.Frame
import proofs.«134333_j32590211842700_1_alg».proof.Proof.Gen.KernelIdeal
import proofs.«134333_j32590211842700_1_alg».proof.Proof.Gen.KernelIdeal.Skeleton
import proofs.«134333_j32590211842700_1_alg».proof.Proof.Gen.KernelIdeal.Launch
import proofs.«134333_j32590211842700_1_alg».proof.Proof.Gen.KernelIdeal.Points
import proofs.«134333_j32590211842700_1_alg».proof.Proof.Gen.KernelIdeal.Frame
import proofs.«134333_j32590211842700_1_alg».proof.Proof.Gen.KernelIdeal.Value
import proofs.«134333_j32590211842700_1_alg».proof.Proof.Gen.ReferenceIdeal
import proofs.«134333_j32590211842700_1_alg».proof.Proof.Gen.Pre_finite_inputs
import proofs.«134333_j32590211842700_1_alg».proof.Proof.Blocks
import proofs.«134333_j32590211842700_1_alg».proof.Proof.RefAt
import proofs.«134333_j32590211842700_1_alg».proof.Proof.RefRun
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the two results dropped. -/
theorem frame_referenceIdeal : Cert.frame_ReferenceIdeal := fun m ρ _ =>
  (θ_run Cert.ReferenceIdeal.defs _ _).mono (fun _ h c => (h c).2.2) (Cert.ReferenceIdeal.HostRun.run (F := Ideal) m ρ)

/-- The idealization rewrote no operation. -/
theorem preserves : Cert.preserves_Kernel_KernelIdeal := trivial

/-- From memories that agree on the arguments both programs end with the policy and the weights at the network's
    whole arrays of the arguments: the kernel block by block, the reference stage by stage. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono
    (fun _ h c => ⟨(h c).1.trans ?_, (h c).2.1.trans ?_, (h c).2.2⟩)
    (Cert.ReferenceIdeal.HostRun.run (F := Ideal) m' ρ')
  · obtain ⟨h0, h1, h2, h3, h4, h5, h6, h7⟩ := hagree c
    rw [Cert.ReferenceIdeal.AtIndex.policy_eq, h0, h1, h2, h3, h4, h5, h6, h7]
  · obtain ⟨h0, h1, h2, h3, h4, h5, h6, h7⟩ := hagree c
    rw [Cert.ReferenceIdeal.AtIndex.weight_eq, h0, h1, h2, h3, h4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
